-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v40)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v40) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v44) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x1x1024x1024 : Shape := ⟨4, ![32, 1, 1024, 1024]⟩
abbrev S_ : Shape := ⟨0, ![]⟩

class Facts : Prop where
  bcast_S_S32x1x1024x1024 : S_.BroadcastsInDim S32x1x1024x1024 (![] : Fin 0 → Fin S32x1x1024x1024.rank)
  reducesTo_S32x1x1024x1024_S_d0_1_2_3 : S32x1x1024x1024.ReducesTo [0, 1, 2, 3] S_
  h_S_ : 0 < S_.numel

variable [Facts]

def fn {F : FTy → Type} [FloatOps F] (main_arg0 : FVec F S32x1x1024x1024 .f32) (main_arg1 : IVec S32x1x1024x1024 32) : IVec S_ 1 :=
  let main_v0 : FVec F S32x1x1024x1024 .f32 := Host.absf main_arg0
  let main_cst : FVec F S_ .f32 := constant S_ .f32 0x7F800000#32
  let main_v1 : FVec F S32x1x1024x1024 .f32 := broadcastInDim S32x1x1024x1024 ![] bcast_S_S32x1x1024x1024 main_cst
  let main_v2 : IVec S32x1x1024x1024 1 := cmpf .olt main_v0 main_v1
  let main_c : IVec S_ 1 := constantI S_ 1 1#1
  let main_v3 : IVec S_ 1 := (fun x v => Host.reduce IntOp.andi x v reducesTo_S32x1x1024x1024_S_d0_1_2_3 h_S_) main_v2 main_c
  let main_c_0 : IVec S_ 32 := constantI S_ 32 0#32
  let main_v4 : IVec S32x1x1024x1024 32 := broadcastInDim S32x1x1024x1024 ![] bcast_S_S32x1x1024x1024 main_c_0
  let main_v5 : IVec S32x1x1024x1024 1 := cmpi .sge main_arg1 main_v4
  let main_c_1 : IVec S_ 1 := constantI S_ 1 1#1
  let main_v6 : IVec S_ 1 := (fun x v => Host.reduce IntOp.andi x v reducesTo_S32x1x1024x1024_S_d0_1_2_3 h_S_) main_v5 main_c_1
  let main_v7 : IVec S_ 1 := andi main_v3 main_v6
  let main_c_2 : IVec S_ 32 := constantI S_ 32 2#32
  let main_v8 : IVec S32x1x1024x1024 32 := broadcastInDim S32x1x1024x1024 ![] bcast_S_S32x1x1024x1024 main_c_2
  let main_v9 : IVec S32x1x1024x1024 1 := cmpi .slt main_arg1 main_v8
  let main_c_3 : IVec S_ 1 := constantI S_ 1 1#1
  let main_v10 : IVec S_ 1 := (fun x v => Host.reduce IntOp.andi x v reducesTo_S32x1x1024x1024_S_d0_1_2_3 h_S_) main_v9 main_c_3
  let main_v11 : IVec S_ 1 := andi main_v7 main_v10
  main_v11
-- ==== Kernel.lean ====
abbrev S32x1x1024x1024 : Shape := ⟨4, ![32, 1, 1024, 1024]⟩
abbrev S32768x1024 : Shape := ⟨2, ![32768, 1024]⟩
abbrev S16x128 : Shape := ⟨2, ![16, 128]⟩
abbrev S512x1024 : Shape := ⟨2, ![512, 1024]⟩
abbrev S8x128 : Shape := ⟨2, ![8, 128]⟩
abbrev S4x1024 : Shape := ⟨2, ![4, 1024]⟩
abbrev S1x1024 : Shape := ⟨2, ![1, 1024]⟩
abbrev S1024 : Shape := ⟨1, ![1024]⟩
abbrev S1 : Shape := ⟨1, ![1]⟩
abbrev S1x1 : Shape := ⟨2, ![1, 1]⟩
abbrev S4x1 : Shape := ⟨2, ![4, 1]⟩
abbrev S8x1 : Shape := ⟨2, ![8, 1]⟩
abbrev S_ : Shape := ⟨0, ![]⟩

abbrev nBuf : Space → Nat
  | .hbm => 52
  | .vmem => 7
  | .smem => 0
  | _ => 0

abbrev bufTy : (tb : Table) → Fin (tcTables nBuf tb) → BufTy
  | .hbm, ⟨0, _⟩ => ⟨S32x1x1024x1024, .f32⟩
  | .hbm, ⟨1, _⟩ => ⟨S32x1x1024x1024, .i32⟩
  | .hbm, ⟨2, _⟩ => ⟨S32768x1024, .f32⟩
  | .hbm, ⟨3, _⟩ => ⟨S32768x1024, .i32⟩
  | .hbm, ⟨4, _⟩ => ⟨S16x128, .f32⟩
  | .hbm, ⟨5, _⟩ => ⟨S1x1, .f32⟩
  | .hbm, ⟨6, _⟩ => ⟨S_, .f32⟩
  | .hbm, ⟨7, _⟩ => ⟨S1x1, .f32⟩
  | .hbm, ⟨8, _⟩ => ⟨S_, .f32⟩
  | .hbm, ⟨9, _⟩ => ⟨S_, .f32⟩
  | .hbm, ⟨10, _⟩ => ⟨S1x1, .f32⟩
  | .hbm, ⟨11, _⟩ => ⟨S_, .f32⟩
  | .hbm, ⟨12, _⟩ => ⟨S1x1, .f32⟩
  | .hbm, ⟨13, _⟩ => ⟨S_, .f32⟩
  | .hbm, ⟨14, _⟩ => ⟨S_, .f32⟩
  | .hbm, ⟨15, _⟩ => ⟨S1x1, .f32⟩
  | .hbm, ⟨16, _⟩ => ⟨S_, .f32⟩
  | .hbm, ⟨17, _⟩ => ⟨S1x1, .f32⟩
  | .hbm, ⟨18, _⟩ => ⟨S_, .f32⟩
  | .hbm, ⟨19, _⟩ => ⟨S_, .f32⟩
  | .hbm, ⟨20, _⟩ => ⟨S1x1, .f32⟩
  | .hbm, ⟨21, _⟩ => ⟨S_, .f32⟩
  | .hbm, ⟨22, _⟩ => ⟨S1x1, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S_, .f32⟩
  | .hbm, ⟨32, _⟩ => ⟨S_, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S_, .f32⟩
  | .hbm, ⟨42, _⟩ => ⟨S_, .f32⟩
  | .hbm, ⟨43, _⟩ => ⟨S_, .f32⟩
  | .hbm, ⟨44, _⟩ => ⟨S_, .f32⟩
  | .hbm, ⟨45, _⟩ => ⟨S_, .f32⟩
  | .hbm, ⟨46, _⟩ => ⟨S_, .f32⟩
  | .hbm, ⟨47, _⟩ => ⟨S_, .f32⟩
  | .hbm, ⟨48, _⟩ => ⟨S_, .f32⟩
  | .hbm, ⟨49, _⟩ => ⟨S_, .f32⟩
  | .hbm, ⟨50, _⟩ => ⟨S_, .f32⟩
  | .hbm, ⟨51, _⟩ => ⟨S_, .f32⟩
  | .local _ .vmem, ⟨0, _⟩ => ⟨S512x1024, .f32⟩
  | .local _ .vmem, ⟨1, _⟩ => ⟨S512x1024, .f32⟩
  | .local _ .vmem, ⟨2, _⟩ => ⟨S512x1024, .i32⟩
  | .local _ .vmem, ⟨3, _⟩ => ⟨S512x1024, .i32⟩
  | .local _ .vmem, ⟨4, _⟩ => ⟨S8x128, .f32⟩
  | .local _ .vmem, ⟨5, _⟩ => ⟨S8x128, .f32⟩
  | .local _ .vmem, ⟨6, _⟩ => ⟨S4x1024, .f32⟩
  | _, _ => ⟨S32x1x1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_v15 : Ref sig .tc := ⟨.hbm, 17, rfl⟩
abbrev main_v16 : Ref sig .tc := ⟨.hbm, 18, rfl⟩
abbrev main_v17 : Ref sig .tc := ⟨.hbm, 19, rfl⟩
abbrev main_v18 : Ref sig .tc := ⟨.hbm, 20, rfl⟩
abbrev main_v19 : Ref sig .tc := ⟨.hbm, 21, rfl⟩
abbrev main_v20 : Ref sig .tc := ⟨.hbm, 22, rfl⟩
abbrev main_v21 : Ref sig .tc := ⟨.hbm, 23, rfl⟩
abbrev main_v22 : Ref sig .tc := ⟨.hbm, 24, rfl⟩
abbrev main_cst : Ref sig .tc := ⟨.hbm, 25, rfl⟩
abbrev main_v23 : Ref sig .tc := ⟨.hbm, 26, rfl⟩
abbrev main_cst_0 : Ref sig .tc := ⟨.hbm, 27, rfl⟩
abbrev main_v24 : Ref sig .tc := ⟨.hbm, 28, rfl⟩
abbrev main_v25 : Ref sig .tc := ⟨.hbm, 29, rfl⟩
abbrev main_cst_1 : Ref sig .tc := ⟨.hbm, 30, rfl⟩
abbrev main_v26 : Ref sig .tc := ⟨.hbm, 31, rfl⟩
abbrev main_cst_2 : Ref sig .tc := ⟨.hbm, 32, rfl⟩
abbrev main_v27 : Ref sig .tc := ⟨.hbm, 33, rfl⟩
abbrev main_v28 : Ref sig .tc := ⟨.hbm, 34, rfl⟩
abbrev main_cst_3 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_cst_4 : Ref sig .tc := ⟨.hbm, 43, rfl⟩
abbrev main_v36 : Ref sig .tc := ⟨.hbm, 44, rfl⟩
abbrev main_cst_5 : Ref sig .tc := ⟨.hbm, 45, rfl⟩
abbrev main_v37 : Ref sig .tc := ⟨.hbm, 46, rfl⟩
abbrev main_cst_6 : Ref sig .tc := ⟨.hbm, 47, rfl⟩
abbrev main_v38 : Ref sig .tc := ⟨.hbm, 48, rfl⟩
abbrev main_v39 : Ref sig .tc := ⟨.hbm, 49, rfl⟩
abbrev main_cst_7 : Ref sig .tc := ⟨.hbm, 50, rfl⟩
abbrev main_v40 : Ref sig .tc := ⟨.hbm, 51, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 32], ![false, false]⟩

def k0_cond2 (i : grid0.Coords) : BitVec 1 :=
  let arg1 : BitVec 32 := BitVec.ofNat 32 (i 1).val
  let c31_i32 : BitVec 32 := 31#32
  let v40 : BitVec 1 := Scalar.cmpi .eq arg1 c31_i32
  let v41 : BitVec 32 := Scalar.extui v40
  let c0_i32_20 : BitVec 32 := 0#32
  let v42 : BitVec 1 := Scalar.cmpi .ne v41 c0_i32_20
  v42

def cc0_transform_0 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x1024 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S8x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

class Facts₀ : Prop where
  shapeCasts_S32x1x1024x1024_S32768x1024 : S32x1x1024x1024.ShapeCasts S32768x1024
  inb_S4x1024_S4x1024_0_0 : ∀ a, (![0, 0] : Fin 2 → Nat) a + S4x1024.size a ≤ S4x1024.size a
  h_S4x1024 : 0 < S4x1024.numel
  shapeCasts_S4x1024_S4x1024 : S4x1024.ShapeCasts S4x1024
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  inb_S4x1024_S1x1024_0_0 : ∀ a, (![0, 0] : Fin 2 → Nat) a + S1x1024.size a ≤ S4x1024.size a
  h_S1x1024 : 0 < S1x1024.numel
  reduces_S512x1024_S1024 : S512x1024.Reduces [0] S1024
  shapeCasts_S1024_S1x1024 : S1024.ShapeCasts S1x1024
  shapeCasts_S1x1024_S1x1024 : S1x1024.ShapeCasts S1x1024
  inb_S4x1024_S1x1024_1_0 : ∀ a, (![1, 0] : Fin 2 → Nat) a + S1x1024.size a ≤ S4x1024.size a
  inb_S4x1024_S1x1024_2_0 : ∀ a, (![2, 0] : Fin 2 → Nat) a + S1x1024.size a ≤ S4x1024.size a
  inb_S4x1024_S1x1024_3_0 : ∀ a, (![3, 0] : Fin 2 → Nat) a + S1x1024.size a ≤ S4x1024.size a
  reduces_S1x1024_S1 : S1x1024.Reduces [1] S1
  shapeCasts_S1_S1x1 : S1.ShapeCasts S1x1
  concatenates_S1x1_S1x1_S1x1_S1x1_S4x1_S8x1_d0 : Shape.Concatenates [S1x1, S1x1, S1x1, S1x1, S4x1] S8x1 0
  shapeCasts_S8x1_S8x1 : S8x1.ShapeCasts S8x1
  broadcasts_S8x1_S8x128 : S8x1.Broadcasts S8x128
  inb_S8x128_S8x128_0_0 : ∀ a, (![0, 0] : Fin 2 → Nat) a + S8x128.size a ≤ S8x128.size a
  h_S8x128 : 0 < S8x128.numel
  slices_S16x128_S1x1_0_0 : S16x128.Slices ![0, 0] S1x1
  shapeCasts_S1x1_S_ : S1x1.ShapeCasts S_
  slices_S16x128_S1x1_8_0 : S16x128.Slices ![8, 0] S1x1
  slices_S16x128_S1x1_1_0 : S16x128.Slices ![1, 0] S1x1
  slices_S16x128_S1x1_9_0 : S16x128.Slices ![9, 0] S1x1
  slices_S16x128_S1x1_2_0 : S16x128.Slices ![2, 0] S1x1
  slices_S16x128_S1x1_10_0 : S16x128.Slices ![10, 0] S1x1
  slices_S16x128_S1x1_3_0 : S16x128.Slices ![3, 0] S1x1
  slices_S16x128_S1x1_11_0 : S16x128.Slices ![11, 0] S1x1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1024.size a ≤ S32768x1024.size a
  hwx0_0 : ∀ i : grid0.Coords, EltTy.bits .f32 = 32 ∨ (Rect.block (s := S32768x1024) S512x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x1024.size a ≤ S32768x1024.size a
  hwx0_1 : ∀ i : grid0.Coords, EltTy.bits .i32 = 32 ∨ (Rect.block (s := S32768x1024) S512x1024.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8x128.size a ≤ S16x128.size a
  hwx0_2 : ∀ i : grid0.Coords, EltTy.bits .f32 = 32 ∨ (Rect.block (s := S16x128) S8x128.size (cc0_transform_2 i) (hinb0_2 i)).WholeWords (EltTy.packing .f32)

variable [Facts₀]

abbrev win0_0 : Pipeline.Window sig grid0 :=
  Pipeline.Window.ofSpec (Memref.whole main_v0) S512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S512x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S8x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

class Facts : Prop extends Facts₀ where

variable [Facts]
-- ==== ReferenceIdeal.lean ====
abbrev S32x1x1024x1024 : Shape := ⟨4, ![32, 1, 1024, 1024]⟩
abbrev S_ : Shape := ⟨0, ![]⟩
abbrev S33554432 : Shape := ⟨1, ![33554432]⟩
abbrev S2 : Shape := ⟨1, ![2]⟩
abbrev S33554432x1 : Shape := ⟨2, ![33554432, 1]⟩

abbrev nBuf : Space → Nat
  | .hbm => 66
  | .vmem => 0
  | .smem => 0
  | _ => 0

abbrev bufTy : (tb : Table) → Fin (tcTables nBuf tb) → BufTy
  | .hbm, ⟨0, _⟩ => ⟨S32x1x1024x1024, .f32⟩
  | .hbm, ⟨1, _⟩ => ⟨S32x1x1024x1024, .i32⟩
  | .hbm, ⟨2, _⟩ => ⟨S32x1x1024x1024, .f32⟩
  | .hbm, ⟨3, _⟩ => ⟨S32x1x1024x1024, .f32⟩
  | .hbm, ⟨4, _⟩ => ⟨S_, .f32⟩
  | .hbm, ⟨5, _⟩ => ⟨S32x1x1024x1024, .f32⟩
  | .hbm, ⟨6, _⟩ => ⟨S32x1x1024x1024, .f32⟩
  | .hbm, ⟨7, _⟩ => ⟨S_, .f32⟩
  | .hbm, ⟨8, _⟩ => ⟨S32x1x1024x1024, .f32⟩
  | .hbm, ⟨9, _⟩ => ⟨S32x1x1024x1024, .f32⟩
  | .hbm, ⟨10, _⟩ => ⟨S33554432, .f32⟩
  | .hbm, ⟨11, _⟩ => ⟨S33554432, .i32⟩
  | .hbm, ⟨12, _⟩ => ⟨S33554432, .f32⟩
  | .hbm, ⟨13, _⟩ => ⟨S_, .i32⟩
  | .hbm, ⟨14, _⟩ => ⟨S2, .i32⟩
  | .hbm, ⟨15, _⟩ => ⟨S_, .i32⟩
  | .hbm, ⟨16, _⟩ => ⟨S_, .i32⟩
  | .hbm, ⟨17, _⟩ => ⟨S33554432, .i32⟩
  | .hbm, ⟨18, _⟩ => ⟨S33554432, .i32⟩
  | .hbm, ⟨19, _⟩ => ⟨S_, .i32⟩
  | .hbm, ⟨20, _⟩ => ⟨S33554432, .i32⟩
  | .hbm, ⟨21, _⟩ => ⟨S33554432, .i1⟩
  | .hbm, ⟨22, _⟩ => ⟨S_, .i32⟩
  | .hbm, ⟨23, _⟩ => ⟨S33554432, .i32⟩
  | .hbm, ⟨24, _⟩ => ⟨S33554432, .i32⟩
  | .hbm, ⟨25, _⟩ => ⟨S33554432, .i32⟩
  | .hbm, ⟨26, _⟩ => ⟨S33554432x1, .i32⟩
  | .hbm, ⟨27, _⟩ => ⟨S_, .i32⟩
  | .hbm, ⟨28, _⟩ => ⟨S33554432, .i32⟩
  | .hbm, ⟨29, _⟩ => ⟨S2, .i32⟩
  | .hbm, ⟨30, _⟩ => ⟨S2, .f32⟩
  | .hbm, ⟨31, _⟩ => ⟨S_, .f32⟩
  | .hbm, ⟨32, _⟩ => ⟨S2, .f32⟩
  | .hbm, ⟨33, _⟩ => ⟨S2, .f32⟩
  | .hbm, ⟨34, _⟩ => ⟨S2, .f32⟩
  | .hbm, ⟨35, _⟩ => ⟨S_, .f32⟩
  | .hbm, ⟨36, _⟩ => ⟨S2, .f32⟩
  | .hbm, ⟨37, _⟩ => ⟨S2, .f32⟩
  | .hbm, ⟨38, _⟩ => ⟨S_, .i32⟩
  | .hbm, ⟨39, _⟩ => ⟨S33554432, .i32⟩
  | .hbm, ⟨40, _⟩ => ⟨S33554432, .i1⟩
  | .hbm, ⟨41, _⟩ => ⟨S_, .i32⟩
  | .hbm, ⟨42, _⟩ => ⟨S33554432, .i32⟩
  | .hbm, ⟨43, _⟩ => ⟨S33554432, .i32⟩
  | .hbm, ⟨44, _⟩ => ⟨S33554432, .i32⟩
  | .hbm, ⟨45, _⟩ => ⟨S33554432x1, .i32⟩
  | .hbm, ⟨46, _⟩ => ⟨S33554432, .f32⟩
  | .hbm, ⟨47, _⟩ => ⟨S33554432, .f32⟩
  | .hbm, ⟨48, _⟩ => ⟨S33554432, .f32⟩
  | .hbm, ⟨49, _⟩ => ⟨S_, .f32⟩
  | .hbm, ⟨50, _⟩ => ⟨S_, .f32⟩
  | .hbm, ⟨51, _⟩ => ⟨S33554432, .f32⟩
  | .hbm, ⟨52, _⟩ => ⟨S33554432, .f32⟩
  | .hbm, ⟨53, _⟩ => ⟨S33554432, .f32⟩
  | .hbm, ⟨54, _⟩ => ⟨S33554432, .f32⟩
  | .hbm, ⟨55, _⟩ => ⟨S_, .f32⟩
  | .hbm, ⟨56, _⟩ => ⟨S_, .f32⟩
  | .hbm, ⟨57, _⟩ => ⟨S_, .f32⟩
  | .hbm, ⟨58, _⟩ => ⟨S_, .f32⟩
  | .hbm, ⟨59, _⟩ => ⟨S_, .f32⟩
  | .hbm, ⟨60, _⟩ => ⟨S_, .f32⟩
  | .hbm, ⟨61, _⟩ => ⟨S_, .f32⟩
  | .hbm, ⟨62, _⟩ => ⟨S_, .f32⟩
  | .hbm, ⟨63, _⟩ => ⟨S_, .f32⟩
  | .hbm, ⟨64, _⟩ => ⟨S_, .f32⟩
  | .hbm, ⟨65, _⟩ => ⟨S_, .f32⟩
  | _, _ => ⟨S32x1x1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_c : Ref sig .tc := ⟨.hbm, 13, rfl⟩
abbrev main_v9 : Ref sig .tc := ⟨.hbm, 14, rfl⟩
abbrev main_c_1 : Ref sig .tc := ⟨.hbm, 15, rfl⟩
abbrev main_call0_v0 : Ref sig .tc := ⟨.hbm, 16, rfl⟩
abbrev main_call0_v1 : Ref sig .tc := ⟨.hbm, 17, rfl⟩
abbrev main_v10 : Ref sig .tc := ⟨.hbm, 18, rfl⟩
abbrev main_c_2 : Ref sig .tc := ⟨.hbm, 19, rfl⟩
abbrev main_v11 : Ref sig .tc := ⟨.hbm, 20, rfl⟩
abbrev main_v12 : Ref sig .tc := ⟨.hbm, 21, rfl⟩
abbrev main_c_3 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_c_4 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_cst_5 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_cst_6 : Ref sig .tc := ⟨.hbm, 35, rfl⟩
abbrev main_v23 : Ref sig .tc := ⟨.hbm, 36, rfl⟩
abbrev main_v24 : Ref sig .tc := ⟨.hbm, 37, rfl⟩
abbrev main_c_7 : Ref sig .tc := ⟨.hbm, 38, rfl⟩
abbrev main_v25 : Ref sig .tc := ⟨.hbm, 39, rfl⟩
abbrev main_v26 : Ref sig .tc := ⟨.hbm, 40, rfl⟩
abbrev main_c_8 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_cst_9 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_cst_10 : Ref sig .tc := ⟨.hbm, 55, rfl⟩
abbrev main_v39 : Ref sig .tc := ⟨.hbm, 56, rfl⟩
abbrev main_cst_11 : Ref sig .tc := ⟨.hbm, 57, rfl⟩
abbrev main_v40 : Ref sig .tc := ⟨.hbm, 58, rfl⟩
abbrev main_cst_12 : Ref sig .tc := ⟨.hbm, 59, rfl⟩
abbrev main_v41 : Ref sig .tc := ⟨.hbm, 60, rfl⟩
abbrev main_cst_13 : Ref sig .tc := ⟨.hbm, 61, rfl⟩
abbrev main_v42 : Ref sig .tc := ⟨.hbm, 62, rfl⟩
abbrev main_v43 : Ref sig .tc := ⟨.hbm, 63, rfl⟩
abbrev main_cst_14 : Ref sig .tc := ⟨.hbm, 64, rfl⟩
abbrev main_v44 : Ref sig .tc := ⟨.hbm, 65, rfl⟩

abbrev nD : Nat := 1
abbrev τ : Topo := Topo.v7x

variable {F : FTy → Type} [FloatOps F]

class Facts₀ : Prop where
  bcast_S_S32x1x1024x1024 : S_.BroadcastsInDim S32x1x1024x1024 (![] : Fin 0 → Fin S32x1x1024x1024.rank)
  shapeCasts_S32x1x1024x1024_S33554432 : S32x1x1024x1024.ShapeCasts S33554432
  bcast_S_S2 : S_.BroadcastsInDim S2 (![] : Fin 0 → Fin S2.rank)
  bcast_S_S33554432 : S_.BroadcastsInDim S33554432 (![] : Fin 0 → Fin S33554432.rank)
  bcast_S33554432_S33554432x1_0 : S33554432.BroadcastsInDim S33554432x1 (![0] : Fin 1 → Fin S33554432x1.rank)
  reducesTo_S33554432_S_d0 : S33554432.ReducesTo [0] S_
  h_S_ : 0 < S_.numel
  scatter_S2_S33554432x1_S33554432_n_0_0_1_wf : ScatterDims.WF S2 S33554432x1 S33554432 [] [0] [0] 1
  gather_S2_S33554432x1_S33554432_n_0_n_n_0_1_1_wf : GatherDims.WF S2 S33554432x1 S33554432 [] [0] [] [0] [] 1 ![1]

variable [Facts₀]

def scatter_S2_S33554432x1_S33554432_n_0_0_1 : ScatterDims S2 S33554432x1 S33554432 where
  updateWindowDims := []
  insertedWindowDims := [0]
  scatterDimsToOperandDims := [0]
  indexVectorDim := 1
  wf := scatter_S2_S33554432x1_S33554432_n_0_0_1_wf
def gather_S2_S33554432x1_S33554432_n_0_n_n_0_1_1 : GatherDims S2 S33554432x1 S33554432 where
  offsetDims := []
  collapsedSliceDims := [0]
  operandBatchingDims := []
  startIndicesBatchingDims := []
  startIndexMap := [0]
  indexVectorDim := 1
  sliceSizes := ![1]
  wf := gather_S2_S33554432x1_S33554432_n_0_n_n_0_1_1_wf

class Facts : Prop extends Facts₀ where

variable [Facts]
-- ==== Proof.Spec.lean ====
/-
  The mathematics both programs compute, stated once over the argument arrays and free of either program.

  Inputs: a score array `X` and a label array `T` over the index set [32, 1, 1024, 1024]. Per pixel `j` the
  probability is `prob (X j)`, the logistic function of the score, and the label read as a number is `lab (T j)`.
  Four totals over all pixels: `sT` (the labels), `sPT` (probability times label), `sP2` (squared probability),
  `sP2T` (squared probability times label).

  A class weight is `weight f = 1 / (f + ε)²` of the class frequency `f`, and the loss of an intersection `I` and a
  denominator `D` is `loss I D = 1 - (2 I + ε) / (D + ε)`.

  `resK` is the loss written over the four totals, with the frequency of class one taken to be the label total and
  that of class zero the pixel count minus it. `resR` is the loss written pixel by pixel with each pixel's weight
  selected by its label from the two class counts. The two agree when every label is zero or one and every score is
  a real number (`Algebra.lean`).
-/
import Idealize.ShloMosaic.PureOps.Ideal
import Idealize.ShloMosaic.Lib.ValueIdx

noncomputable section

open scoped BigOperators

namespace Cert.Spec

open Idealize.ShloMosaic Idealize.ShloMosaic.ValueIdx

/-- The arguments' index set. -/
abbrev S4d : Shape := ⟨4, ![32, 1, 1024, 1024]⟩
/-- The same pixels as rows of 1024 lanes. -/
abbrev S2d : Shape := ⟨2, ![32768, 1024]⟩
/-- The same pixels in one line. -/
abbrev S1d : Shape := ⟨1, ![33554432]⟩
/-- One tile of 512 rows. -/
abbrev STile : Shape := ⟨2, ![512, 1024]⟩
/-- The four running column totals. -/
abbrev SAcc : Shape := ⟨2, ![4, 1024]⟩
/-- One half's result block. -/
abbrev SBlk : Shape := ⟨2, ![8, 128]⟩
/-- Both halves' result blocks. -/
abbrev SOut : Shape := ⟨2, ![16, 128]⟩

/-- A pixel's probability: the logistic function of its score. -/
def prob (x : EReal) : EReal := Ideal.logistic x
/-- A label word read as a number (signed). -/
def lab (w : BitVec 32) : EReal := ((w.toInt : ℝ) : EReal)

/-- The four per-pixel terms that are totalled: the label, probability times label, squared probability, squared
    probability times label. -/
def term (q : Fin 4) (x : EReal) (w : BitVec 32) : EReal :=
  match q with
  | 0 => lab w
  | 1 => prob x * lab w
  | 2 => prob x * prob x
  | 3 => (prob x * prob x) * lab w

/-- Total `q` over all pixels. -/
def total (q : Fin 4) (X : S4d.Idx → EReal) (T : S4d.Idx → BitVec 32) : EReal := ∑ j : S4d.Idx, term q (X j) (T j)

/-! ### The constants, as the words both programs carry -/

/-- The pixel count 2²⁵. -/
def nTot : EReal := Ideal.ofBits .f32 0x4C000000#32
/-- The smoothing constant. -/
def eps : EReal := Ideal.ofBits .f32 0x3727C5AC#32
def one : EReal := Ideal.ofBits .f32 0x3F800000#32
def two : EReal := Ideal.ofBits .f32 0x40000000#32
def zero : EReal := Ideal.ofBits .f32 0x00000000#32

/-- A class weight from its frequency: `1 / (f + ε)²`. -/
def weight (f : EReal) : EReal := Ideal.div one ((f + eps) * (f + eps))
/-- The loss from an intersection and a denominator: `1 - (2 I + ε) / (D + ε)`. -/
def loss (I D : EReal) : EReal := one - Ideal.div (two * I + eps) (D + eps)

/-- The loss over the four totals `a = Σ t`, `b = Σ p t`, `c = Σ p²`, `d = Σ p² t`. -/
def resK (a b c d : EReal) : EReal :=
  loss (weight a * b) (weight (nTot - a) * (c - d) + weight a * (d + a))

/-- How many pixels carry label `b`. -/
def cnt (T : S4d.Idx → BitVec 32) (b : BitVec 32) : ℕ := (Finset.univ.filter fun j : S4d.Idx => T j = b).card
/-- A pixel's weight, selected by its label from the two class counts. -/
def wsel (T : S4d.Idx → BitVec 32) (w : BitVec 32) : EReal :=
  if w = 1#32 then weight ((cnt T 1#32 : ℝ) : EReal) else weight ((cnt T 0#32 : ℝ) : EReal)
/-- The weighted intersection, pixel by pixel. -/
def iR (X : S4d.Idx → EReal) (T : S4d.Idx → BitVec 32) : EReal :=
  ∑ j : S4d.Idx, (wsel T (T j) * prob (X j)) * lab (T j)
/-- The weighted denominator, pixel by pixel. -/
def dR (X : S4d.Idx → EReal) (T : S4d.Idx → BitVec 32) : EReal :=
  ∑ j : S4d.Idx, wsel T (T j) * (prob (X j) * prob (X j) + lab (T j) * lab (T j))
/-- The loss pixel by pixel. -/
def resR (X : S4d.Idx → EReal) (T : S4d.Idx → BitVec 32) : EReal := loss (iR X T) (dR X T)

/-! ### The shapes the tiled program passes through -/

/-- Column total `q` of one tile at lane `l`: the sum over the tile's 512 rows. -/
def tileCol (q : Fin 4) (x0 : STile.Idx → EReal) (x1 : STile.Idx → BitVec 32) (l : Fin 1024) : EReal :=
  ∑ r : Fin 512, term q (x0 (ix2 r l)) (x1 (ix2 r l))

/-- Half `h`'s part of total `q`: the sum over its 16384 rows and all lanes of the row-major arrays. -/
def half (q : Fin 4) (h : Fin 2) (X2 : S2d.Idx → EReal) (T2 : S2d.Idx → BitVec 32) : EReal :=
  ∑ r : Fin 16384, ∑ l : Fin 1024,
    term q (X2 (ix2 ⟨16384 * h.val + r.val, by have := h.isLt; have := r.isLt; omega⟩ l))
           (T2 (ix2 ⟨16384 * h.val + r.val, by have := h.isLt; have := r.isLt; omega⟩ l))

/-- What the tiled program's result array holds: row `8 h + q` (for `q < 4`) is half `h`'s part of total `q` in every
    lane; the other rows are zero. -/
def outArr (X2 : S2d.Idx → EReal) (T2 : S2d.Idx → BitVec 32) : SOut.Idx → EReal := fun j =>
  if hq : (j 0).val % 8 < 4 then
    half ⟨(j 0).val % 8, hq⟩ ⟨(j 0).val / 8, by have : (j 0).val < 16 := (j 0).isLt; omega⟩ X2 T2
  else zero

end Cert.Spec

end
-- ==== Proof.KPieces.lean ====
/-
  What one run of the kernel body leaves behind, read as values over the extended reals.

  The body keeps four running column totals (a [4, 1024] buffer). At a tile it adds to row `q`, lane `l`, the sum over
  the tile's 512 rows of the per-pixel term `q` (`Spec.tileCol`). At a half's first tile the buffer is first reset to
  zero, so the totals start from the tile's own column sums. At a half's last tile the body also writes the result
  block: row `q < 4` holds, in every lane, the sum over the 1024 lanes of column total `q`; rows 4 to 7 hold zero.
-/
import proofs.«403192_j4870492913844_3_alg».proof.Proof.Gen.KernelIdeal.Frame
import proofs.«403192_j4870492913844_3_alg».proof.Proof.Spec
import Idealize.ShloMosaic.PureOps.Ideal.Laws
import Idealize.ShloMosaic.Lib.Pipeline.Value
import Idealize.ShloMosaic.Lib.ValueIdx
import Idealize.ShloMosaic.Lib.ValueLayout
import Idealize.ShloMosaic.Lib.Tactic

noncomputable section

open scoped BigOperators
open Idealize.ShloMosaic Idealize.ShloMosaic.TcCoe Idealize.SL.Sem Idealize.ShloMosaic.ValueIdx

namespace Cert.KernelIdeal.KPieces

open Cert.KernelIdeal Cert.KernelIdeal.Gen Cert.Spec

/-! ## The per-pixel terms, read at a row and a lane -/

/-- The label block read as numbers: at a pixel, the label word read signed. -/
theorem pay4_at (x1 : Vec Ideal S512x1024 .i32) (r : Fin 512) (l : Fin 1024) :
    k0_pay4 (F := Ideal) x1 (ix2 r l) = lab (x1 (ix2 r l)) := by
  unfold k0_pay4
  refine (sitofp_apply (F := Ideal) (φ := .f32) _ (ix2 r l)).trans ?_
  rw [shapeCast_self]
  rfl

/-- The probability block: at a pixel, the logistic function of the score. -/
theorem pay5_at (x0 : Vec Ideal S512x1024 .f32) (r : Fin 512) (l : Fin 1024) :
    k0_pay5 (F := Ideal) x0 (ix2 r l) = prob (x0 (ix2 r l)) := by
  unfold k0_pay5
  rw [shapeCast_self]
  rfl

/-- The squared probability. -/
theorem pay6_at (x0 : Vec Ideal S512x1024 .f32) (r : Fin 512) (l : Fin 1024) :
    k0_pay6 (F := Ideal) x0 (ix2 r l) = prob (x0 (ix2 r l)) * prob (x0 (ix2 r l)) := by
  unfold k0_pay6
  refine (mulf_apply _ _ (ix2 r l)).trans ?_
  rw [pay5_at]

/-- The squared probability times the label. -/
theorem pay7_at (x0 : Vec Ideal S512x1024 .f32) (x1 : Vec Ideal S512x1024 .i32) (r : Fin 512) (l : Fin 1024) :
    k0_pay7 (F := Ideal) x0 x1 (ix2 r l) = (prob (x0 (ix2 r l)) * prob (x0 (ix2 r l))) * lab (x1 (ix2 r l)) := by
  unfold k0_pay7
  refine (mulf_apply _ _ (ix2 r l)).trans ?_
  rw [pay6_at, pay4_at]

/-! ## A column sum: the reduction over the tile's 512 rows, read at a lane -/

/-- The row-reduction of a [512, 1024] block, given a leading unit axis, reads at lane `l` the sum over the rows. -/
theorem colsum_at (v : FVec Ideal S512x1024 .f32) (u : Fin 1) (l : Fin 1024) :
    shapeCast S1x1024 (multiReduction .add [0] S1024 v 0x00000000#32 reduces_S512x1024_S1024 (.inl rfl) rfl)
        shapeCasts_S1024_S1x1024 (ix2 u l)
      = ∑ r : Fin 512, v (ix2 r l) := by
  refine (shapeCast_a_1a_apply _ shapeCasts_S1024_S1x1024 u l).trans ?_
  refine (Ideal.multiReduction_add_single v _ reduces_S512x1024_S1024 (.inl rfl) rfl (ix1 l)).trans ?_
  refine Finset.sum_congr rfl fun r _ => congrArg v ?_
  funext a
  match a with
  | ⟨0, _⟩ => rfl
  | ⟨1, _⟩ => rfl

/-! ## The four-row buffer: reading a list of stores at a row and a lane -/

theorem hz2 : (![0, 0] : Fin 2 → Nat) = fun _ => 0 := funext fun a => by fin_cases a <;> rfl

/-- Lane `l` of the one-row rectangle at row `q` sits at `(q, l)` of the buffer. -/
theorem row_idx (q : Fin 4) (inb : ∀ a, (![q.val, 0] : Fin 2 → Nat) a + (![1, 1024] : Fin 2 → Nat) a ≤ S4x1024.size a)
    (u : Fin 1) (l : Fin 1024) :
    (Rect.unit (s := S4x1024) ![q.val, 0] ![1, 1024] inb).idx (ix2 u l) = ix2 q l := by
  funext a
  refine Fin.ext ?_
  have hu : u.val = 0 := by omega
  match a with
  | ⟨0, _⟩ => show q.val + 1 * u.val = q.val; omega
  | ⟨1, _⟩ => show 0 + 1 * l.val = l.val; omega

/-- A store into another row leaves row `q` as the earlier stores left it. -/
theorem canon_skip_row (q' : ℕ) (inb : ∀ a, (![q', 0] : Fin 2 → Nat) a + (![1, 1024] : Fin 2 → Nat) a ≤ S4x1024.size a)
    (w : (Rect.unit (s := S4x1024) ![q', 0] ![1, 1024] inb).shape.Idx → Elt Ideal .f32)
    (L : List (View.Piece (Elt Ideal) S4x1024 .f32)) (q : Fin 4) (l : Fin 1024) (h : q.val ≠ q') :
    View.canon ((⟨Rect.unit (s := S4x1024) ![q', 0] ![1, 1024] inb, w⟩ : View.Piece (Elt Ideal) S4x1024 .f32) :: L) (ix2 q l)
      = View.canon L (ix2 q l) := by
  refine View.canon_cons_of_not_mem _ L ?_
  intro hm
  have hm' : (ix2 q l : S4x1024.Idx) ∈ (Rect.unit (s := S4x1024) ![q', 0] ![1, 1024] inb).set := hm
  have h0 := (Rect.mem_set_unit.mp hm') (0 : Fin 2)
  have e0 : ((ix2 q l : S4x1024.Idx) 0 : ℕ) = q.val := rfl
  have e1 : (![q', 0] : Fin 2 → Nat) 0 = q' := rfl
  have e2 : (![1, 1024] : Fin 2 → Nat) 0 = 1 := rfl
  rw [e0, e1, e2] at h0
  omega

/-- A store into row `q`, last, leaves its payload there. -/
theorem canon_hit_row (q : Fin 4) (inb : ∀ a, (![q.val, 0] : Fin 2 → Nat) a + (![1, 1024] : Fin 2 → Nat) a ≤ S4x1024.size a)
    (w : (Rect.unit (s := S4x1024) ![q.val, 0] ![1, 1024] inb).shape.Idx → Elt Ideal .f32)
    (L : List (View.Piece (Elt Ideal) S4x1024 .f32)) (l : Fin 1024) :
    View.canon ((⟨Rect.unit (s := S4x1024) ![q.val, 0] ![1, 1024] inb, w⟩ : View.Piece (Elt Ideal) S4x1024 .f32) :: L) (ix2 q l)
      = w (ix2 (0 : Fin 1) l) := by
  have e := View.canon_cons_emb (Val := Elt Ideal) (Rect.unit (s := S4x1024) ![q.val, 0] ![1, 1024] inb) w L (ix2 (0 : Fin 1) l)
  rw [show (Rect.unit (s := S4x1024) ![q.val, 0] ![1, 1024] inb).emb (ix2 (0 : Fin 1) l) = ix2 q l from row_idx q inb 0 l] at e
  exact e

/-- A store of the whole buffer, last, leaves its payload everywhere. -/
theorem canon_hit_whole (inb : ∀ a, (![0, 0] : Fin 2 → Nat) a + S4x1024.size a ≤ S4x1024.size a)
    (w : S4x1024.Idx → Elt Ideal .f32) (L : List (View.Piece (Elt Ideal) S4x1024 .f32)) (y : S4x1024.Idx) :
    View.canon ((⟨Rect.unit (s := S4x1024) ![0, 0] S4x1024.size inb, w⟩ : View.Piece (Elt Ideal) S4x1024 .f32) :: L) y = w y :=
  congrFun (View.canon_cons_unit_zero (S := S4x1024) hz2 inb w L) y

/-- A load of row `q` from the buffer holding `xs` reads `xs` at `(q, l)`. -/
theorem row_read (arg5 : Memref sig .tc .vmem S4x1024 .f32) (harg5 : arg5.IsWhole) (xs : Vec Ideal S4x1024 .f32)
    (q : Fin 4) (inb : ∀ a, (![q.val, 0] : Fin 2 → Nat) a + (![1, 1024] : Fin 2 → Nat) a ≤ S4x1024.size a)
    (u : Fin 1) (l : Fin 1024) :
    View.readAt (Elt Ideal) arg5.view (Rect.unit (s := S4x1024) ![q.val, 0] ![1, 1024] inb).toLoadRect (harg5.unread xs) (ix2 u l)
      = xs (ix2 q l) := by
  rw [View.readAt_eq_ld, harg5.read_unread]
  show xs ((Rect.unit (s := S4x1024) ![q.val, 0] ![1, 1024] inb).idx (ix2 u l)) = _
  rw [row_idx]

/-- A load of row `q` after the stores `L` reads what they left at `(q, l)`. -/
theorem row_readCov (arg5 : Memref sig .tc .vmem S4x1024 .f32) (L : List (View.Piece (Elt Ideal) S4x1024 .f32))
    (q : Fin 4) (inb : ∀ a, (![q.val, 0] : Fin 2 → Nat) a + (![1, 1024] : Fin 2 → Nat) a ≤ S4x1024.size a)
    (u : Fin 1) (l : Fin 1024) :
    arg5.view.readCov L (Rect.unit (s := S4x1024) ![q.val, 0] ![1, 1024] inb).toLoadRect (ix2 u l)
      = View.canon L (ix2 q l) := by
  rw [View.readCov_eq_canon']
  show View.canon L ((Rect.unit (s := S4x1024) ![q.val, 0] ![1, 1024] inb).idx (ix2 u l)) = _
  rw [row_idx]

/-- A load of a whole input block reads the block. -/
theorem whole_read_f (arg2 : Memref sig .tc .vmem S512x1024 .f32) (harg2 : arg2.IsWhole) (x0 : Vec Ideal S512x1024 .f32)
    (inb : ∀ a, (![0, 0] : Fin 2 → Nat) a + S512x1024.size a ≤ S512x1024.size a) :
    View.readAt (Elt Ideal) arg2.view (Rect.unit (s := S512x1024) ![0, 0] S512x1024.size inb).toLoadRect (harg2.unread x0) = x0 := by
  rw [View.readAt_eq_ld, harg2.read_unread, View.ld_unit_zero (S := S512x1024) hz2]

theorem whole_read_i (arg3 : Memref sig .tc .vmem S512x1024 .i32) (harg3 : arg3.IsWhole) (x1 : Vec Ideal S512x1024 .i32)
    (inb : ∀ a, (![0, 0] : Fin 2 → Nat) a + S512x1024.size a ≤ S512x1024.size a) :
    View.readAt (Elt Ideal) arg3.view (Rect.unit (s := S512x1024) ![0, 0] S512x1024.size inb).toLoadRect (harg3.unread x1) = x1 := by
  rw [View.readAt_eq_ld, harg3.read_unread, View.ld_unit_zero (S := S512x1024) hz2]

/-! ## The four row updates, read at a lane -/

/-- The reset block is zero everywhere. -/
theorem pay3_at (y : S4x1024.Idx) : k0_pay3 (F := Ideal) y = 0 := by
  unfold k0_pay3
  refine (congrFun (shapeCast_self _ shapeCasts_S4x1024_S4x1024) y).trans ?_
  exact Ideal.ofBits_zero_f32

/-- Row 0: the carried row plus the column sums of the labels. -/
theorem pay8_at (x0 : Vec Ideal S512x1024 .f32) (x1 : Vec Ideal S512x1024 .i32) (v : Vec Ideal S1x1024 .f32)
    (u : Fin 1) (l : Fin 1024) :
    k0_pay8 (F := Ideal) x1 v (ix2 u l) = v (ix2 u l) + tileCol 0 x0 x1 l := by
  unfold k0_pay8
  refine (congrFun (shapeCast_self _ shapeCasts_S1x1024_S1x1024) (ix2 u l)).trans ?_
  refine (addf_apply _ _ (ix2 u l)).trans ?_
  refine congrArg (v (ix2 u l) + ·) ?_
  refine (colsum_at _ u l).trans ?_
  exact Finset.sum_congr rfl fun r _ => pay4_at x1 r l

/-- Row 1: the carried row plus the column sums of probability times label. -/
theorem pay9_at (x0 : Vec Ideal S512x1024 .f32) (x1 : Vec Ideal S512x1024 .i32) (v : Vec Ideal S1x1024 .f32)
    (u : Fin 1) (l : Fin 1024) :
    k0_pay9 (F := Ideal) x0 x1 v (ix2 u l) = v (ix2 u l) + tileCol 1 x0 x1 l := by
  unfold k0_pay9
  refine (congrFun (shapeCast_self _ shapeCasts_S1x1024_S1x1024) (ix2 u l)).trans ?_
  refine (addf_apply _ _ (ix2 u l)).trans ?_
  refine congrArg (v (ix2 u l) + ·) ?_
  refine (colsum_at _ u l).trans ?_
  refine Finset.sum_congr rfl fun r _ => ?_
  refine (mulf_apply _ _ (ix2 r l)).trans ?_
  rw [pay5_at, pay4_at]
  rfl

/-- Row 2: the carried row plus the column sums of the squared probability. -/
theorem pay10_at (x0 : Vec Ideal S512x1024 .f32) (x1 : Vec Ideal S512x1024 .i32) (v : Vec Ideal S1x1024 .f32)
    (u : Fin 1) (l : Fin 1024) :
    k0_pay10 (F := Ideal) x0 v (ix2 u l) = v (ix2 u l) + tileCol 2 x0 x1 l := by
  unfold k0_pay10
  refine (congrFun (shapeCast_self _ shapeCasts_S1x1024_S1x1024) (ix2 u l)).trans ?_
  refine (addf_apply _ _ (ix2 u l)).trans ?_
  refine congrArg (v (ix2 u l) + ·) ?_
  refine (colsum_at _ u l).trans ?_
  exact Finset.sum_congr rfl fun r _ => pay6_at x0 r l

/-- Row 3: the carried row plus the column sums of squared probability times label. -/
theorem pay1_at (x0 : Vec Ideal S512x1024 .f32) (x1 : Vec Ideal S512x1024 .i32) (v : Vec Ideal S1x1024 .f32)
    (u : Fin 1) (l : Fin 1024) :
    k0_pay1 (F := Ideal) (k0_pay7 x0 x1) v (ix2 u l) = v (ix2 u l) + tileCol 3 x0 x1 l := by
  unfold k0_pay1
  refine (congrFun (shapeCast_self _ shapeCasts_S1x1024_S1x1024) (ix2 u l)).trans ?_
  refine (addf_apply _ _ (ix2 u l)).trans ?_
  refine congrArg (v (ix2 u l) + ·) ?_
  refine (colsum_at _ u l).trans ?_
  exact Finset.sum_congr rfl fun r _ => pay7_at x0 x1 r l

/-! ## The buffer after one run -/

/-- Four row stores, rows 3 down to 0, the last four of a run: row `q` reads its own store's payload, whatever came
    before them. -/
theorem rows_read (inb3 : ∀ a, (![3, 0] : Fin 2 → Nat) a + (![1, 1024] : Fin 2 → Nat) a ≤ S4x1024.size a) (inb2 : ∀ a, (![2, 0] : Fin 2 → Nat) a + (![1, 1024] : Fin 2 → Nat) a ≤ S4x1024.size a)
    (inb1 : ∀ a, (![1, 0] : Fin 2 → Nat) a + (![1, 1024] : Fin 2 → Nat) a ≤ S4x1024.size a) (inb0 : ∀ a, (![0, 0] : Fin 2 → Nat) a + (![1, 1024] : Fin 2 → Nat) a ≤ S4x1024.size a)
    (w3 : (Rect.unit (s := S4x1024) ![3, 0] ![1, 1024] inb3).shape.Idx → Elt Ideal .f32)
    (w2 : (Rect.unit (s := S4x1024) ![2, 0] ![1, 1024] inb2).shape.Idx → Elt Ideal .f32)
    (w1 : (Rect.unit (s := S4x1024) ![1, 0] ![1, 1024] inb1).shape.Idx → Elt Ideal .f32)
    (w0 : (Rect.unit (s := S4x1024) ![0, 0] ![1, 1024] inb0).shape.Idx → Elt Ideal .f32)
    (L : List (View.Piece (Elt Ideal) S4x1024 .f32)) (f : Fin 4 → EReal) (q : Fin 4) (l : Fin 1024)
    (h0 : w0 (ix2 (0 : Fin 1) l) = f 0) (h1 : w1 (ix2 (0 : Fin 1) l) = f 1)
    (h2 : w2 (ix2 (0 : Fin 1) l) = f 2) (h3 : w3 (ix2 (0 : Fin 1) l) = f 3) :
    View.canon ((⟨Rect.unit (s := S4x1024) ![3, 0] ![1, 1024] inb3, w3⟩ : View.Piece (Elt Ideal) S4x1024 .f32) :: ⟨Rect.unit (s := S4x1024) ![2, 0] ![1, 1024] inb2, w2⟩
        :: ⟨Rect.unit (s := S4x1024) ![1, 0] ![1, 1024] inb1, w1⟩ :: ⟨Rect.unit (s := S4x1024) ![0, 0] ![1, 1024] inb0, w0⟩ :: L) (ix2 q l) = f q := by
  match q with
  | ⟨0, _⟩ =>
    refine (canon_skip_row 3 inb3 w3 _ 0 l (by decide)).trans ?_
    refine (canon_skip_row 2 inb2 w2 _ 0 l (by decide)).trans ?_
    refine (canon_skip_row 1 inb1 w1 _ 0 l (by decide)).trans ?_
    exact (canon_hit_row 0 inb0 w0 L l).trans h0
  | ⟨1, _⟩ =>
    refine (canon_skip_row 3 inb3 w3 _ 1 l (by decide)).trans ?_
    refine (canon_skip_row 2 inb2 w2 _ 1 l (by decide)).trans ?_
    exact (canon_hit_row 1 inb1 w1 _ l).trans h1
  | ⟨2, _⟩ =>
    refine (canon_skip_row 3 inb3 w3 _ 2 l (by decide)).trans ?_
    exact (canon_hit_row 2 inb2 w2 _ l).trans h2
  | ⟨3, _⟩ =>
    exact (canon_hit_row 3 inb3 w3 _ l).trans h3

/-- The four row updates over a buffer holding `xs0`: row `q`, lane `l` ends at the carried value plus the tile's
    column total `q`. -/
theorem rows_BC (arg5 : Memref sig .tc .vmem S4x1024 .f32) (harg5 : arg5.IsWhole)
    (x0 : Vec Ideal S512x1024 .f32) (x1 : Vec Ideal S512x1024 .i32) (xs0 : Vec Ideal S4x1024 .f32)
    (inb3 : ∀ a, (![3, 0] : Fin 2 → Nat) a + (![1, 1024] : Fin 2 → Nat) a ≤ S4x1024.size a) (inb2 : ∀ a, (![2, 0] : Fin 2 → Nat) a + (![1, 1024] : Fin 2 → Nat) a ≤ S4x1024.size a)
    (inb1 : ∀ a, (![1, 0] : Fin 2 → Nat) a + (![1, 1024] : Fin 2 → Nat) a ≤ S4x1024.size a) (inb0 : ∀ a, (![0, 0] : Fin 2 → Nat) a + (![1, 1024] : Fin 2 → Nat) a ≤ S4x1024.size a)
    (q : Fin 4) (l : Fin 1024) :
    View.canon
      ([⟨Rect.unit (s := S4x1024) ![3, 0] ![1, 1024] inb3, k0_pay1 (F := Ideal) (k0_pay7 x0 x1) (View.readAt (Elt Ideal) arg5.view (Rect.unit (s := S4x1024) ![3, 0] ![1, 1024] inb3).toLoadRect (harg5.unread xs0))⟩,
        ⟨Rect.unit (s := S4x1024) ![2, 0] ![1, 1024] inb2, k0_pay10 (F := Ideal) x0 (View.readAt (Elt Ideal) arg5.view (Rect.unit (s := S4x1024) ![2, 0] ![1, 1024] inb2).toLoadRect (harg5.unread xs0))⟩,
        ⟨Rect.unit (s := S4x1024) ![1, 0] ![1, 1024] inb1, k0_pay9 (F := Ideal) x0 x1 (View.readAt (Elt Ideal) arg5.view (Rect.unit (s := S4x1024) ![1, 0] ![1, 1024] inb1).toLoadRect (harg5.unread xs0))⟩,
        ⟨Rect.unit (s := S4x1024) ![0, 0] ![1, 1024] inb0, k0_pay8 (F := Ideal) x1 (View.readAt (Elt Ideal) arg5.view (Rect.unit (s := S4x1024) ![0, 0] ![1, 1024] inb0).toLoadRect (harg5.unread xs0))⟩] : List (View.Piece (Elt Ideal) S4x1024 .f32)) (ix2 q l)
      = xs0 (ix2 q l) + tileCol q x0 x1 l :=
  rows_read inb3 inb2 inb1 inb0 _ _ _ _ [] (fun q => xs0 (ix2 q l) + tileCol q x0 x1 l) q l
    ((pay8_at x0 x1 _ 0 l).trans (congrArg (· + tileCol 0 x0 x1 l) (row_read arg5 harg5 xs0 0 inb0 0 l)))
    ((pay9_at x0 x1 _ 0 l).trans (congrArg (· + tileCol 1 x0 x1 l) (row_read arg5 harg5 xs0 1 inb1 0 l)))
    ((pay10_at x0 x1 _ 0 l).trans (congrArg (· + tileCol 2 x0 x1 l) (row_read arg5 harg5 xs0 2 inb2 0 l)))
    ((pay1_at x0 x1 _ 0 l).trans (congrArg (· + tileCol 3 x0 x1 l) (row_read arg5 harg5 xs0 3 inb3 0 l)))

/-! ## The result block at a half's last tile -/

/-- The lane reduction of a one-row vector, given a second unit axis, is the sum over its 1024 lanes. -/
theorem lanesum_at (v : FVec Ideal S1x1024 .f32) (a b : Fin 1) :
    shapeCast S1x1 (multiReduction .add [1] S1 v 0x00000000#32 reduces_S1x1024_S1 (.inl rfl) rfl) shapeCasts_S1_S1x1 (ix2 a b)
      = ∑ l : Fin 1024, v (ix2 b l) := by
  refine (shapeCast_a_1a_apply _ shapeCasts_S1_S1x1 a b).trans ?_
  refine (Ideal.multiReduction_add_single v _ reduces_S1x1024_S1 (.inl rfl) rfl (ix1 b)).trans ?_
  refine Finset.sum_congr rfl fun l _ => congrArg v ?_
  funext ax
  match ax with
  | ⟨0, _⟩ => rfl
  | ⟨1, _⟩ => rfl

/-- A column broadcast over 128 lanes reads the column at the row. -/
theorem bcast_col {α : Type} (v : S8x1.Idx → α) (h : S8x1.Broadcasts S8x128) (r : Fin 8) (l' : Fin 128) :
    broadcastTo S8x128 v h (ix2 r l') = v (ix2 r (0 : Fin 1)) := by
  refine broadcastTo_apply v h (ix2 r l') (ix2 r (0 : Fin 1)) fun ax => ?_
  match ax with
  | ⟨0, _⟩ =>
    show r.val = if (8 : ℕ) = 1 then 0 else r.val
    rw [if_neg (by decide)]
  | ⟨1, _⟩ =>
    show (0 : ℕ) = if (1 : ℕ) = 1 then 0 else l'.val
    rw [if_pos rfl]

/-- Off the stacking axis the one-entry pieces and the column agree on their one lane coordinate. -/
theorem stack_hi {n : ℕ} (a : Fin n) (r : Fin 8) :
    ∀ b : Fin 2, b.cast (rfl : (2 : ℕ) = 2) ≠ (0 : Fin 2) →
      (((ix2 a (0 : Fin 1) : (⟨2, ![n, 1]⟩ : Shape).Idx) b : ℕ)) = ((ix2 r (0 : Fin 1) : S8x1.Idx) (b.cast (rfl : (2 : ℕ) = 2)) : ℕ) := by
  intro b hb
  match b with
  | ⟨0, _⟩ => exact absurd rfl hb
  | ⟨1, _⟩ => rfl

/-- Rows 0 to 3 of the result block: row `q` holds, in every lane, the sum over the 1024 lanes of scratch row `q`. -/
theorem pay2_lo (v0 v1 v2 v3 : Vec Ideal S1x1024 .f32) (q : Fin 4) (r : Fin 8) (hr : r.val = q.val) (l' : Fin 128)
    (f : Fin 4 → EReal)
    (h0 : ∑ l : Fin 1024, v0 (ix2 (0 : Fin 1) l) = f 0) (h1 : ∑ l : Fin 1024, v1 (ix2 (0 : Fin 1) l) = f 1)
    (h2 : ∑ l : Fin 1024, v2 (ix2 (0 : Fin 1) l) = f 2) (h3 : ∑ l : Fin 1024, v3 (ix2 (0 : Fin 1) l) = f 3) :
    k0_pay2 (F := Ideal) v0 v1 v2 v3 (ix2 r l') = f q := by
  unfold k0_pay2
  refine (bcast_col _ broadcasts_S8x1_S8x128 r l').trans ?_
  refine (congrFun (shapeCast_self _ shapeCasts_S8x1_S8x1) (ix2 r (0 : Fin 1))).trans ?_
  match q, hr with
  | ⟨0, _⟩, hr =>
    have ha : 0 + 0 = r.val := hr.symm
    refine (concatenate_apply_piece (t := S8x1) 0 _ _ (ix2 r (0 : Fin 1)) 0
      (by show (0 : ℕ) < 5; omega) S1x1 _ rfl rfl 0 rfl (ix2 (0 : Fin 1) (0 : Fin 1)) (stack_hi 0 r) ha).trans ?_
    exact (lanesum_at v0 0 0).trans h0
  | ⟨1, _⟩, hr =>
    have ha : 1 + 0 = r.val := hr.symm
    refine (concatenate_apply_piece (t := S8x1) 0 _ _ (ix2 r (0 : Fin 1)) 1
      (by show (1 : ℕ) < 5; omega) S1x1 _ rfl rfl 1 rfl (ix2 (0 : Fin 1) (0 : Fin 1)) (stack_hi 0 r) ha).trans ?_
    exact (lanesum_at v1 0 0).trans h1
  | ⟨2, _⟩, hr =>
    have ha : 2 + 0 = r.val := hr.symm
    refine (concatenate_apply_piece (t := S8x1) 0 _ _ (ix2 r (0 : Fin 1)) 2
      (by show (2 : ℕ) < 5; omega) S1x1 _ rfl rfl 2 rfl (ix2 (0 : Fin 1) (0 : Fin 1)) (stack_hi 0 r) ha).trans ?_
    exact (lanesum_at v2 0 0).trans h2
  | ⟨3, _⟩, hr =>
    have ha : 3 + 0 = r.val := hr.symm
    refine (concatenate_apply_piece (t := S8x1) 0 _ _ (ix2 r (0 : Fin 1)) 3
      (by show (3 : ℕ) < 5; omega) S1x1 _ rfl rfl 3 rfl (ix2 (0 : Fin 1) (0 : Fin 1)) (stack_hi 0 r) ha).trans ?_
    exact (lanesum_at v3 0 0).trans h3

/-- Rows 4 to 7 of the result block hold the zero word. -/
theorem pay2_hi (v0 v1 v2 v3 : Vec Ideal S1x1024 .f32) (r : Fin 8) (hr : 4 ≤ r.val) (l' : Fin 128) :
    k0_pay2 (F := Ideal) v0 v1 v2 v3 (ix2 r l') = Cert.Spec.zero := by
  unfold k0_pay2
  refine (bcast_col _ broadcasts_S8x1_S8x128 r l').trans ?_
  refine (congrFun (shapeCast_self _ shapeCasts_S8x1_S8x1) (ix2 r (0 : Fin 1))).trans ?_
  have hr8 : r.val < 8 := r.isLt
  have ha : 4 + (r.val - 4) = r.val := by omega
  refine (concatenate_apply_piece (t := S8x1) 0 _ _ (ix2 r (0 : Fin 1)) 4
    (by show (4 : ℕ) < 5; omega) S4x1 _ rfl rfl 4 rfl (ix2 (⟨r.val - 4, by omega⟩ : Fin 4) (0 : Fin 1)) (stack_hi _ r) ha).trans ?_
  rfl

/-! ## What each case of one run leaves -/

/-- A value that is zero adds nothing. -/
theorem zero_add_of (a t : EReal) (h : a = 0) : a + t = t := by rw [h, zero_add]

/-- A half's first tile: the reset buffer plus the tile's column sums is the tile's column sums. -/
theorem sout_A (c : Dev nD) (i : grid0.Coords) (arg2 : Memref sig .tc .vmem S512x1024 .f32) (harg2 : arg2.IsWhole) (arg3 : Memref sig .tc .vmem S512x1024 .i32) (harg3 : arg3.IsWhole) (arg4 : Memref sig .tc .vmem S8x128 .f32) (harg4 : arg4.IsWhole) (arg5 : Memref sig .tc .vmem S4x1024 .f32) (harg5 : arg5.IsWhole) (hc0 : cond0_0 i) (hc1 : ¬cond0_1 i)
    (x0 : Vec Ideal S512x1024 .f32) (x1 : Vec Ideal S512x1024 .i32) (q : Fin 4) (l : Fin 1024) :
    sout0_A_0 (F := Ideal) c i arg2 harg2 arg3 harg3 arg4 harg4 arg5 harg5 hc0 hc1 x0 x1 (ix2 q l) = tileCol q x0 x1 l := by
  unfold sout0_A_0
  rw [View.read_writes_eq_canon _ _ _ (scover0_A_0 c i arg2 harg2 arg3 harg3 arg4 harg4 arg5 harg5 hc0 hc1 x0 x1)]
  unfold kernelRun0_A
  dsimp only
  sl_unfold_words
  rw [whole_read_f arg2 harg2 x0, whole_read_i arg3 harg3 x1]
  refine rows_read _ _ _ _ _ _ _ _ _ (fun q => tileCol q x0 x1 l) q l ?_ ?_ ?_ ?_
  · refine (pay8_at x0 x1 _ 0 l).trans (zero_add_of _ _ ?_)
    refine (row_readCov arg5 _ 0 _ 0 l).trans ?_
    exact (canon_hit_whole _ _ _ _).trans (pay3_at _)
  · refine (pay9_at x0 x1 _ 0 l).trans (zero_add_of _ _ ?_)
    refine (row_readCov arg5 _ 1 _ 0 l).trans ?_
    refine (canon_skip_row 0 _ _ _ 1 l (by decide)).trans ?_
    exact (canon_hit_whole _ _ _ _).trans (pay3_at _)
  · refine (pay10_at x0 x1 _ 0 l).trans (zero_add_of _ _ ?_)
    refine (row_readCov arg5 _ 2 _ 0 l).trans ?_
    refine (canon_skip_row 1 _ _ _ 2 l (by decide)).trans ?_
    refine (canon_skip_row 0 _ _ _ 2 l (by decide)).trans ?_
    exact (canon_hit_whole _ _ _ _).trans (pay3_at _)
  · refine (pay1_at x0 x1 _ 0 l).trans (zero_add_of _ _ ?_)
    refine (row_readCov arg5 _ 3 _ 0 l).trans ?_
    refine (canon_skip_row 2 _ _ _ 3 l (by decide)).trans ?_
    refine (canon_skip_row 1 _ _ _ 3 l (by decide)).trans ?_
    refine (canon_skip_row 0 _ _ _ 3 l (by decide)).trans ?_
    exact (canon_hit_whole _ _ _ _).trans (pay3_at _)

/-- A middle tile: the carried totals plus the tile's column sums. -/
theorem sout_B (c : Dev nD) (i : grid0.Coords) (arg2 : Memref sig .tc .vmem S512x1024 .f32) (harg2 : arg2.IsWhole) (arg3 : Memref sig .tc .vmem S512x1024 .i32) (harg3 : arg3.IsWhole) (arg4 : Memref sig .tc .vmem S8x128 .f32) (harg4 : arg4.IsWhole) (arg5 : Memref sig .tc .vmem S4x1024 .f32) (harg5 : arg5.IsWhole) (hc0 : ¬cond0_0 i) (hc1 : ¬cond0_1 i)
    (x0 : Vec Ideal S512x1024 .f32) (x1 : Vec Ideal S512x1024 .i32) (xs0 : Vec Ideal S4x1024 .f32) (q : Fin 4) (l : Fin 1024) :
    sout0_B_0 (F := Ideal) c i arg2 harg2 arg3 harg3 arg4 harg4 arg5 harg5 hc0 hc1 x0 x1 xs0 (ix2 q l) = xs0 (ix2 q l) + tileCol q x0 x1 l := by
  unfold sout0_B_0
  rw [View.read_writes_eq_canon _ _ _ (scover0_B_0 c i arg2 harg2 arg3 harg3 arg4 harg4 arg5 harg5 hc0 hc1 x0 x1 xs0)]
  unfold kernelRun0_B
  dsimp only
  sl_unfold_words
  rw [whole_read_f arg2 harg2 x0, whole_read_i arg3 harg3 x1]
  exact rows_BC arg5 harg5 x0 x1 xs0 _ _ _ _ q l

/-- A half's last tile: the same update of the carried totals. -/
theorem sout_C (c : Dev nD) (i : grid0.Coords) (arg2 : Memref sig .tc .vmem S512x1024 .f32) (harg2 : arg2.IsWhole) (arg3 : Memref sig .tc .vmem S512x1024 .i32) (harg3 : arg3.IsWhole) (arg4 : Memref sig .tc .vmem S8x128 .f32) (harg4 : arg4.IsWhole) (arg5 : Memref sig .tc .vmem S4x1024 .f32) (harg5 : arg5.IsWhole) (hc0 : ¬cond0_0 i) (hc1 : cond0_1 i)
    (x0 : Vec Ideal S512x1024 .f32) (x1 : Vec Ideal S512x1024 .i32) (xs0 : Vec Ideal S4x1024 .f32) (q : Fin 4) (l : Fin 1024) :
    sout0_C_0 (F := Ideal) c i arg2 harg2 arg3 harg3 arg4 harg4 arg5 harg5 hc0 hc1 x0 x1 xs0 (ix2 q l) = xs0 (ix2 q l) + tileCol q x0 x1 l := by
  unfold sout0_C_0
  rw [View.read_writes_eq_canon _ _ _ (scover0_C_0 c i arg2 harg2 arg3 harg3 arg4 harg4 arg5 harg5 hc0 hc1 x0 x1 xs0)]
  unfold kernelRun0_C
  dsimp only
  sl_unfold_words
  rw [whole_read_f arg2 harg2 x0, whole_read_i arg3 harg3 x1]
  exact rows_BC arg5 harg5 x0 x1 xs0 _ _ _ _ q l

/-- A half's last tile writes the result block: rows 0 to 3 the lane sums of the updated totals, rows 4 to 7 zero. -/
theorem out_C (c : Dev nD) (i : grid0.Coords) (arg2 : Memref sig .tc .vmem S512x1024 .f32) (harg2 : arg2.IsWhole) (arg3 : Memref sig .tc .vmem S512x1024 .i32) (harg3 : arg3.IsWhole) (arg4 : Memref sig .tc .vmem S8x128 .f32) (harg4 : arg4.IsWhole) (arg5 : Memref sig .tc .vmem S4x1024 .f32) (harg5 : arg5.IsWhole) (hc0 : ¬cond0_0 i) (hc1 : cond0_1 i)
    (x0 : Vec Ideal S512x1024 .f32) (x1 : Vec Ideal S512x1024 .i32) (xs0 : Vec Ideal S4x1024 .f32) (r : Fin 8) (l' : Fin 128) :
    out0_C_2 (F := Ideal) c i arg2 harg2 arg3 harg3 arg4 harg4 arg5 harg5 hc0 hc1 x0 x1 xs0 (ix2 r l')
      = if h : r.val < 4 then ∑ l : Fin 1024, (xs0 (ix2 (⟨r.val, h⟩ : Fin 4) l) + tileCol ⟨r.val, h⟩ x0 x1 l) else Cert.Spec.zero := by
  unfold out0_C_2
  rw [View.read_writes_eq_canon _ _ _ (cover0_C_2 c i arg2 harg2 arg3 harg3 arg4 harg4 arg5 harg5 hc0 hc1 x0 x1 xs0)]
  unfold kernelRun0_C
  dsimp only
  sl_unfold_words
  rw [whole_read_f arg2 harg2 x0, whole_read_i arg3 harg3 x1]
  refine (congrFun (View.canon_unit_zero (S := S8x128) hz2 _ _) (ix2 r l')).trans ?_
  by_cases h : r.val < 4
  · rw [dif_pos h]
    refine pay2_lo _ _ _ _ ⟨r.val, h⟩ r rfl l' (fun q => ∑ l : Fin 1024, (xs0 (ix2 q l) + tileCol q x0 x1 l)) ?_ ?_ ?_ ?_
    · exact Finset.sum_congr rfl fun l _ =>
        (row_readCov arg5 _ 0 _ 0 l).trans (rows_BC arg5 harg5 x0 x1 xs0 _ _ _ _ 0 l)
    · exact Finset.sum_congr rfl fun l _ =>
        (row_readCov arg5 _ 1 _ 0 l).trans (rows_BC arg5 harg5 x0 x1 xs0 _ _ _ _ 1 l)
    · exact Finset.sum_congr rfl fun l _ =>
        (row_readCov arg5 _ 2 _ 0 l).trans (rows_BC arg5 harg5 x0 x1 xs0 _ _ _ _ 2 l)
    · exact Finset.sum_congr rfl fun l _ =>
        (row_readCov arg5 _ 3 _ 0 l).trans (rows_BC arg5 harg5 x0 x1 xs0 _ _ _ _ 3 l)
  · rw [dif_neg h]
    exact pay2_hi _ _ _ _ r (by omega) l'

end Cert.KernelIdeal.KPieces

end
-- ==== Proof.KAcc.lean ====
/-
  The result array of the tiled program, as one function of the two row-major arrays it reads.

  The grid is two halves of 32 tiles. Within a half the four column totals accumulate tile by tile (induction on the
  tile), starting afresh at the half's first tile; the half's last tile writes block `h` of the [16, 128] result:
  row `8 h + q`, `q < 4`, is the sum over the half's 16384 rows and 1024 lanes of term `q` (`Spec.half`), the other
  rows zero. The two blocks cover the result array.

  The steps. Tile `t` is rows `512 t, …, 512 t + 511` of the arrays, so the column total of the blocks at point `t`
  is a sum over those rows (`tileCol_blk`). After point `n` the carried buffer holds the running total of the tiles
  `32 (n / 32), …, n` (`scratch_eq`, by induction on `n`: a reset at `n % 32 = 0`, one more tile otherwise). At
  `n % 32 = 31` the running total is over all 32 tiles of the half, that is over its 16384 rows (`half_sum`), and its
  lane sum is `Spec.half` (`half_eq`: the sums over lanes and rows commute). The block written back at that point is
  block `n / 32` of `Spec.outArr` (`flushed_eq`), and every row `i` of the result lies in block `i / 8` (`cover`).
-/
import proofs.«403192_j4870492913844_3_alg».proof.Proof.KPieces

noncomputable section

open scoped BigOperators
open Idealize.ShloMosaic Idealize.ShloMosaic.TcCoe Idealize.SL.Sem Idealize.ShloMosaic.ValueIdx
open Idealize.ShloMosaic.Pipeline (Dat)

namespace Cert.KernelIdeal.KAcc

open Cert.KernelIdeal Cert.KernelIdeal.Gen Cert.Spec

variable (m : (ℓ : Loc nD τ sig) → Buf (Elt Ideal) ℓ)

/-! ### The two input blocks and the two arrays, by name -/

/-- The score block the body reads at point `t`. -/
abbrev xblk (c : Dev nD) (t : Fin cfg0.N) : Vec Ideal S512x1024 .f32 := iblk m c 0 t
/-- The label block the body reads at point `t`. -/
abbrev tblk (c : Dev nD) (t : Fin cfg0.N) : Vec Ideal S512x1024 .i32 := iblk m c 1 t
/-- The row-major score array as the region finds it. -/
abbrev xarr (c : Dev nD) : S2d.Idx → EReal := V m c main_v0
/-- The row-major label array as the region finds it. -/
abbrev tarr (c : Dev nD) : S2d.Idx → BitVec 32 := V m c main_v1

/-! ### Where the blocks sit: the index maps over the 64 points -/

/-- The score block at point `t` is row block `t`, all lanes. -/
theorem idx0 : ∀ t : Fin cfg0.N, win0_0.index t 0 = t.val ∧ win0_0.index t 1 = 0 :=
  (by decide +kernel : ∀ t : Fin grid0.N, win0_0.index t 0 = t.val ∧ win0_0.index t 1 = 0)
/-- So is the label block. -/
theorem idx1 : ∀ t : Fin cfg0.N, win0_1.index t 0 = t.val ∧ win0_1.index t 1 = 0 :=
  (by decide +kernel : ∀ t : Fin grid0.N, win0_1.index t 0 = t.val ∧ win0_1.index t 1 = 0)
/-- The result block at point `t` is block `t / 32`: the point's half. -/
theorem idx2 : ∀ t : Fin cfg0.N, win0_2.index t 0 = t.val / 32 ∧ win0_2.index t 1 = 0 :=
  (by decide +kernel : ∀ t : Fin grid0.N, win0_2.index t 0 = t.val / 32 ∧ win0_2.index t 1 = 0)

theorem row_lt (t : Fin cfg0.N) (r : Fin 512) : 512 * t.val + r.val < 32768 := by
  have hN : t.val < 64 := lt_of_lt_of_eq t.isLt (show cfg0.N = 64 from N_0)
  have := r.isLt; omega

/-- Row `r` of the score block at point `t` is row `512 t + r` of the array. -/
theorem xblk_apply (c : Dev nD) (t : Fin cfg0.N) (r : Fin 512) (l : Fin 1024) :
    xblk m c t (ix2 r l) = xarr m c (ix2 ⟨512 * t.val + r.val, row_lt t r⟩ l) := by
  show V m c main_v0 (((cfg0.win 0).blk t).view.emb (ix2 r l)) = V m c main_v0 (ix2 ⟨512 * t.val + r.val, row_lt t r⟩ l)
  refine congrArg (V m c main_v0) (funext fun a => Fin.ext ?_)
  match a with
  | ⟨0, _⟩ => show win0_0.index t 0 * 512 + 1 * r.val = 512 * t.val + r.val; rw [(idx0 t).1]; omega
  | ⟨1, _⟩ => show win0_0.index t 1 * 1024 + 1 * l.val = l.val; rw [(idx0 t).2]; omega

/-- Row `r` of the label block at point `t` is row `512 t + r` of the array. -/
theorem tblk_apply (c : Dev nD) (t : Fin cfg0.N) (r : Fin 512) (l : Fin 1024) :
    tblk m c t (ix2 r l) = tarr m c (ix2 ⟨512 * t.val + r.val, row_lt t r⟩ l) := by
  show V m c main_v1 (((cfg0.win 1).blk t).view.emb (ix2 r l)) = V m c main_v1 (ix2 ⟨512 * t.val + r.val, row_lt t r⟩ l)
  refine congrArg (V m c main_v1) (funext fun a => Fin.ext ?_)
  match a with
  | ⟨0, _⟩ => show win0_1.index t 0 * 512 + 1 * r.val = 512 * t.val + r.val; rw [(idx1 t).1]; omega
  | ⟨1, _⟩ => show win0_1.index t 1 * 1024 + 1 * l.val = l.val; rw [(idx1 t).2]; omega

/-! ### The sums, over the row number -/

/-- Term `q` of the pixel in row `ρ`, lane `l` of the row-major arrays (zero past the last row, which nothing reads). -/
def rowTerm (X2 : S2d.Idx → EReal) (T2 : S2d.Idx → BitVec 32) (q : Fin 4) (l : Fin 1024) (ρ : ℕ) : EReal :=
  if h : ρ < 32768 then term q (X2 (ix2 ⟨ρ, h⟩ l)) (T2 (ix2 ⟨ρ, h⟩ l)) else 0

/-- Tile `t`'s column total at lane `l`, over the arrays: the tile's rows are `512 t, …, 512 t + 511`. -/
def tileAt (X2 : S2d.Idx → EReal) (T2 : S2d.Idx → BitVec 32) (q : Fin 4) (l : Fin 1024) (t : ℕ) : EReal :=
  ∑ r : Fin 512, rowTerm X2 T2 q l (512 * t + r.val)

/-- The column total of the blocks at point `t` is tile `t`'s. -/
theorem tileCol_blk (c : Dev nD) (t : Fin cfg0.N) (q : Fin 4) (l : Fin 1024) :
    tileCol q (xblk m c t) (tblk m c t) l = tileAt (xarr m c) (tarr m c) q l t.val := by
  unfold tileCol tileAt
  refine Finset.sum_congr rfl fun r _ => ?_
  rw [xblk_apply m c t r l, tblk_apply m c t r l]
  unfold rowTerm
  rw [dif_pos (row_lt t r)]

/-- The running total after tile `n`: the tiles of `n`'s half up to `n`, that is `32 (n / 32), …, n`. -/
def run (g : ℕ → EReal) (n : ℕ) : EReal := ∑ k ∈ Finset.range (n % 32 + 1), g (32 * (n / 32) + k)

/-- At a half's first tile the running total is that tile's. -/
theorem run_first (g : ℕ → EReal) (n : ℕ) (h : n % 32 = 0) : run g n = g n := by
  unfold run
  rw [h, Finset.sum_range_one]
  congr 1; omega

/-- At any other tile it is the total after the tile before plus this tile's. -/
theorem run_step (g : ℕ → EReal) (n : ℕ) (h : ¬n % 32 = 0) : run g n = run g (n - 1) + g n := by
  unfold run
  have h1 : n % 32 = (n - 1) % 32 + 1 := by omega
  have h2 : (n - 1) / 32 = n / 32 := by omega
  rw [h1, h2, Finset.sum_range_succ]
  congr 2; omega

/-- `a` consecutive stretches of `b` naturals are the first `a b` naturals. -/
theorem sum_tiles (f : ℕ → EReal) (b : ℕ) : ∀ a : ℕ,
    ∑ k ∈ Finset.range a, ∑ r ∈ Finset.range b, f (b * k + r) = ∑ s ∈ Finset.range (a * b), f s
  | 0 => by simp
  | a + 1 => by
    rw [Finset.sum_range_succ, sum_tiles f b a, Nat.succ_mul, Finset.sum_range_add, Nat.mul_comm b a]

/-- The 32 tiles of half `h`, 512 rows each, are the half's 16384 rows. -/
theorem half_sum (f : ℕ → EReal) (h : ℕ) :
    ∑ k ∈ Finset.range 32, ∑ r : Fin 512, f (512 * (32 * h + k) + r.val) = ∑ s : Fin 16384, f (16384 * h + s.val) :=
  calc ∑ k ∈ Finset.range 32, ∑ r : Fin 512, f (512 * (32 * h + k) + r.val)
      = ∑ k ∈ Finset.range 32, ∑ r ∈ Finset.range 512, f (16384 * h + (512 * k + r)) := by
        refine Finset.sum_congr rfl fun k _ => ?_
        rw [Fin.sum_univ_eq_sum_range (fun s => f (512 * (32 * h + k) + s)) 512]
        refine Finset.sum_congr rfl fun r _ => ?_
        congr 1; omega
    _ = ∑ s ∈ Finset.range (32 * 512), f (16384 * h + s) := sum_tiles (fun s => f (16384 * h + s)) 512 32
    _ = ∑ s : Fin 16384, f (16384 * h + s.val) := (Fin.sum_univ_eq_sum_range (fun s => f (16384 * h + s)) 16384).symm

/-- Summed over the lanes, the running total after a half's last tile is the half's part of the total. -/
theorem half_eq (X2 : S2d.Idx → EReal) (T2 : S2d.Idx → BitVec 32) (q : Fin 4) (h : Fin 2) (n : ℕ)
    (hn : n / 32 = h.val) (h31 : n % 32 = 31) :
    ∑ l : Fin 1024, run (tileAt X2 T2 q l) n = half q h X2 T2 := by
  unfold half
  rw [Finset.sum_comm]
  refine Finset.sum_congr rfl fun l _ => ?_
  unfold run tileAt
  rw [h31, hn]
  refine (half_sum (rowTerm X2 T2 q l) h.val).trans ?_
  refine Finset.sum_congr rfl fun r _ => ?_
  have := h.isLt
  have := r.isLt
  unfold rowTerm
  rw [dif_pos (show 16384 * h.val + r.val < 32768 by omega)]

/-! ### The carried totals, tile by tile -/

/-- After point `n` the carried buffer holds, in row `q` and lane `l`, the running column total of `n`'s half up to
    tile `n`: a half's first tile starts afresh from its own column totals, every later tile adds its own to what the
    tile before left. -/
theorem scratch_eq (c : Dev nD) : ∀ (n : ℕ) (hn : n < cfg0.N) (q : Fin 4) (l : Fin 1024),
    (outsAt0 m c n hn).2 (ix2 q l) = run (tileAt (xarr m c) (tarr m c) q l) n := by
  intro n
  induction n using Nat.strong_induction_on with
  | _ n ih =>
    intro hn q l
    by_cases h0 : n % 32 = 0
    · have h1 : ¬n % 32 = 31 := by omega
      rw [outsAt0_A m c ⟨n, hn⟩ h0 h1]
      dsimp only
      refine (KPieces.sout_A c (grid0.coords ⟨n, hn⟩) (ms0_0 ⟨n, hn⟩) (hs0_0 ⟨n, hn⟩) (ms0_1 ⟨n, hn⟩) (hs0_1 ⟨n, hn⟩)
        (ms0_2 ⟨n, hn⟩) (hs0_2 ⟨n, hn⟩) scM0_0 (Memref.isWhole_whole _) ((hcond0_0 ⟨n, hn⟩).mpr h0)
        (fun h => h1 ((hcond0_1 ⟨n, hn⟩).mp h)) (xblk m c ⟨n, hn⟩) (tblk m c ⟨n, hn⟩) q l).trans ?_
      rw [tileCol_blk m c ⟨n, hn⟩ q l, run_first _ n h0]
    · have hpos : n - 1 < n := by omega
      have hn' : n - 1 < cfg0.N := Nat.lt_of_le_of_lt (Nat.sub_le _ _) hn
      by_cases h1 : n % 32 = 31
      · rw [outsAt0_C m c ⟨n, hn⟩ h0 h1]
        dsimp only
        refine (KPieces.sout_C c (grid0.coords ⟨n, hn⟩) (ms0_0 ⟨n, hn⟩) (hs0_0 ⟨n, hn⟩) (ms0_1 ⟨n, hn⟩) (hs0_1 ⟨n, hn⟩)
          (ms0_2 ⟨n, hn⟩) (hs0_2 ⟨n, hn⟩) scM0_0 (Memref.isWhole_whole _) (fun h => h0 ((hcond0_0 ⟨n, hn⟩).mp h))
          ((hcond0_1 ⟨n, hn⟩).mpr h1) (xblk m c ⟨n, hn⟩) (tblk m c ⟨n, hn⟩) (outsAt0 m c (n - 1) hn').2 q l).trans ?_
        rw [ih (n - 1) hpos hn' q l, tileCol_blk m c ⟨n, hn⟩ q l, run_step _ n h0]
      · rw [outsAt0_B m c ⟨n, hn⟩ h0 h1]
        dsimp only
        refine (KPieces.sout_B c (grid0.coords ⟨n, hn⟩) (ms0_0 ⟨n, hn⟩) (hs0_0 ⟨n, hn⟩) (ms0_1 ⟨n, hn⟩) (hs0_1 ⟨n, hn⟩)
          (ms0_2 ⟨n, hn⟩) (hs0_2 ⟨n, hn⟩) scM0_0 (Memref.isWhole_whole _) (fun h => h0 ((hcond0_0 ⟨n, hn⟩).mp h))
          (fun h => h1 ((hcond0_1 ⟨n, hn⟩).mp h)) (xblk m c ⟨n, hn⟩) (tblk m c ⟨n, hn⟩) (outsAt0 m c (n - 1) hn').2 q l).trans ?_
        rw [ih (n - 1) hpos hn' q l, tileCol_blk m c ⟨n, hn⟩ q l, run_step _ n h0]

/-- At a half's last tile the result block holds, in row `r < 4` and every lane, the lane sum of the running total
    after that tile; rows 4 to 7 hold zero. -/
theorem block_eq (c : Dev nD) (n : ℕ) (hn : n < cfg0.N) (h31 : n % 32 = 31) (r : Fin 8) (l' : Fin 128) :
    (outsAt0 m c n hn).1 (ix2 r l')
      = if h : r.val < 4 then ∑ l : Fin 1024, run (tileAt (xarr m c) (tarr m c) ⟨r.val, h⟩ l) n else Cert.Spec.zero := by
  have h0 : ¬n % 32 = 0 := by omega
  have hn' : n - 1 < cfg0.N := Nat.lt_of_le_of_lt (Nat.sub_le _ _) hn
  rw [outsAt0_C m c ⟨n, hn⟩ h0 h31]
  dsimp only
  refine (KPieces.out_C c (grid0.coords ⟨n, hn⟩) (ms0_0 ⟨n, hn⟩) (hs0_0 ⟨n, hn⟩) (ms0_1 ⟨n, hn⟩) (hs0_1 ⟨n, hn⟩)
    (ms0_2 ⟨n, hn⟩) (hs0_2 ⟨n, hn⟩) scM0_0 (Memref.isWhole_whole _) (fun h => h0 ((hcond0_0 ⟨n, hn⟩).mp h))
    ((hcond0_1 ⟨n, hn⟩).mpr h31) (xblk m c ⟨n, hn⟩) (tblk m c ⟨n, hn⟩) (outsAt0 m c (n - 1) hn').2 r l').trans ?_
  by_cases h : r.val < 4
  · rw [dif_pos h, dif_pos h]
    refine Finset.sum_congr rfl fun l _ => ?_
    rw [scratch_eq m c (n - 1) hn' ⟨r.val, h⟩ l, tileCol_blk m c ⟨n, hn⟩ ⟨r.val, h⟩ l, run_step _ n h0]
  · rw [dif_neg h, dif_neg h]

/-! ### From the two blocks to the result array -/

/-- The result array's claimed contents at row `8 h + r`: half `h`'s part of total `r` for `r < 4`, zero otherwise. -/
theorem outArr_at (X2 : S2d.Idx → EReal) (T2 : S2d.Idx → BitVec 32) (h : Fin 2) (r : Fin 8) (l' : Fin 128)
    (hb : 8 * h.val + r.val < 16) :
    outArr X2 T2 (ix2 ⟨8 * h.val + r.val, hb⟩ l') = if hr : r.val < 4 then half ⟨r.val, hr⟩ h X2 T2 else Cert.Spec.zero := by
  have e8 : (8 * h.val + r.val) % 8 = r.val := by have := r.isLt; omega
  have ed : (8 * h.val + r.val) / 8 = h.val := by have := r.isLt; omega
  unfold outArr
  by_cases hr : r.val < 4
  · have hq : (8 * h.val + r.val) % 8 < 4 := by omega
    rw [dif_pos hr]
    refine (dif_pos hq).trans ?_
    have e1 : (⟨(8 * h.val + r.val) % 8, hq⟩ : Fin 4) = ⟨r.val, hr⟩ := Fin.ext e8
    have e2 : (⟨(8 * h.val + r.val) / 8, by omega⟩ : Fin 2) = h := Fin.ext ed
    exact congrArg₂ (fun a b => half a b X2 T2) e1 e2
  · have hq : ¬(8 * h.val + r.val) % 8 < 4 := by omega
    rw [dif_neg hr]
    exact dif_neg hq

theorem out_row_lt (t : Fin cfg0.N) (r : Fin 8) : 8 * (t.val / 32) + r.val < 16 := by
  have hN : t.val < 64 := lt_of_lt_of_eq t.isLt (show cfg0.N = 64 from N_0)
  have := r.isLt; omega

/-- Row `r` of the result block at point `t` is row `8 (t / 32) + r` of the result array. -/
theorem blk2_emb (t : Fin cfg0.N) (r : Fin 8) (l' : Fin 128) :
    ((cfg0.win 2).blk t).view.emb (ix2 r l') = (ix2 ⟨8 * (t.val / 32) + r.val, out_row_lt t r⟩ l' : SOut.Idx) := by
  funext a
  apply Fin.ext
  match a with
  | ⟨0, _⟩ => show win0_2.index t 0 * 8 + 1 * r.val = 8 * (t.val / 32) + r.val; rw [(idx2 t).1]; omega
  | ⟨1, _⟩ => show win0_2.index t 1 * 128 + 1 * l'.val = l'.val; rw [(idx2 t).2]; omega

/-- What a half's last tile writes back is its block of the claimed contents. -/
theorem flushed_eq (c : Dev nD) (t : Fin cfg0.N) (hf : (cfg0.win 2).flush t = true) :
    (dats m 0 c).flushed 2 t
      = ((cfg0.win 2).blk t).view.read (Elt Ideal) (outArr (V m c main_v0) (V m c main_v1)) := by
  have h31 : t.val % 32 = 31 := (flush0_2 t).mp hf
  have hN : t.val < 64 := lt_of_lt_of_eq t.isLt (show cfg0.N = 64 from N_0)
  show (cfg0.win 2).cut (grid0.coords t) ((dats m 0 c).after 2 t) = _
  rw [after0_2]
  funext j
  obtain ⟨r, l', rfl⟩ : ∃ (r : Fin 8) (l' : Fin 128), j = ix2 r l' := ⟨j 0, j 1, eq_ix2 j⟩
  show (outsAt0 m c t.val t.isLt).1 (ix2 r l')
    = outArr (xarr m c) (tarr m c) (((cfg0.win 2).blk t).view.emb (ix2 r l'))
  refine (block_eq m c t.val t.isLt h31 r l').trans ?_
  refine Eq.trans ?_ (congrArg (outArr (xarr m c) (tarr m c)) (blk2_emb t r l').symm)
  refine Eq.trans ?_ (outArr_at (xarr m c) (tarr m c) ⟨t.val / 32, by omega⟩ r l' (out_row_lt t r)).symm
  by_cases h : r.val < 4
  · rw [dif_pos h, dif_pos h]
    exact half_eq (xarr m c) (tarr m c) ⟨r.val, h⟩ ⟨t.val / 32, by omega⟩ t.val rfl h31
  · rw [dif_neg h, dif_neg h]

/-- Every row of the result array is in the block its half's last tile writes back. -/
theorem cover (i : SOut.Idx) :
    ∃ t : Fin cfg0.N, (cfg0.win 2).flush t = true ∧ i ∈ ((cfg0.win 2).blk t).view.set := by
  have hi0 : (i 0).val < 16 := (i 0).isLt
  have hi1 : (i 1).val < 128 := (i 1).isLt
  have ht : 32 * ((i 0).val / 8) + 31 < cfg0.N := lt_of_lt_of_eq (show 32 * ((i 0).val / 8) + 31 < 64 by omega) N_0.symm
  refine ⟨⟨32 * ((i 0).val / 8) + 31, ht⟩, (flush0_2 _).mpr (show (32 * ((i 0).val / 8) + 31) % 32 = 31 by omega), ?_⟩
  show i ∈ ((View.whole main_v2).slice (win0_2.rect ⟨32 * ((i 0).val / 8) + 31, ht⟩)).set
  rw [View.set_slice_whole, Rect.mem_set_unit]
  intro a
  have e := idx2 ⟨32 * ((i 0).val / 8) + 31, ht⟩
  match a with
  | ⟨0, _⟩ =>
    show win0_2.index ⟨32 * ((i 0).val / 8) + 31, ht⟩ 0 * 8 ≤ (i 0).val
      ∧ (i 0).val < win0_2.index ⟨32 * ((i 0).val / 8) + 31, ht⟩ 0 * 8 + 8
    rw [e.1]
    show (32 * ((i 0).val / 8) + 31) / 32 * 8 ≤ (i 0).val ∧ (i 0).val < (32 * ((i 0).val / 8) + 31) / 32 * 8 + 8
    omega
  | ⟨1, _⟩ =>
    show win0_2.index ⟨32 * ((i 0).val / 8) + 31, ht⟩ 1 * 128 ≤ (i 1).val
      ∧ (i 1).val < win0_2.index ⟨32 * ((i 0).val / 8) + 31, ht⟩ 1 * 128 + 128
    rw [e.2]
    omega

/-- After the region the result array holds `Spec.outArr` of the two row-major arrays as the region found them. -/
theorem final (c : Dev nD) :
    (dats (F := Ideal) m 0 c).arrAt 2 cfg0.N = outArr (V m c main_v0) (V m c main_v1) :=
  (dats m 0 c).arrAt_eq_of_cover 2 (outArr (V m c main_v0) (V m c main_v1)) (fun t hf => flushed_eq m c t hf)
    (fun i => cover i)

end Cert.KernelIdeal.KAcc

end
-- ==== Proof.KTail.lean ====
/-
  The tiled program's run, read to its result: the loss over the four totals.

  After the region the host reads rows 0 to 3 of each half's block at lane 0, adds the two halves of each total, and
  computes the loss from them (`Spec.resK`). Each total's two halves add up to the total over all pixels: the
  row-major [32768, 1024] arrays are the arguments reshaped, and the first 16384 rows and the last 16384 rows
  partition them.

  The steps, in order:
  * `halves_total`: a sum over all pixels is a sum over the row-major index set (a reshape only renames the
    indices, one to one), that sum is a double sum over rows and lanes, and the rows split into the first and the
    last 16384. The extended reals are a commutative monoid under addition, so nothing has to be finite.
  * `tail_of`: the 47 host operations after the region, read at the result. Each of the eight scalars they cut out
    of the [16, 128] result array is an entry at lane 0 (`pick`); what follows is the arithmetic of `Spec.resK`,
    operation by operation.
  * `tail_eq`: the region leaves `Spec.outArr` in the result array (`KAcc.final`), whose row `8 h + q` is half
    `h`'s part of total `q` (`outArr_at`); the two arrays the region reads are the arguments reshaped
    (`V_main_v0`, `V_main_v1`).
  * `run`: the frame run's post read at the result and at the two arguments.
-/
import proofs.«403192_j4870492913844_3_alg».proof.Proof.KAcc
import Idealize.ShloMosaic.Lib.StableHlo.Run
import Idealize.ShloMosaic.Lib.ValueLayout
import Idealize.ShloMosaic.Lib.IdealHost

noncomputable section

open scoped BigOperators
open Idealize.ShloMosaic Idealize.ShloMosaic.TcCoe Idealize.SL.Sem Idealize.ShloMosaic.ValueIdx

namespace Cert.KernelIdeal.KTail

open Cert.KernelIdeal Cert.KernelIdeal.Gen Cert.Spec

variable (m : (ℓ : Loc nD τ sig) → Buf (Elt Ideal) ℓ) (ρ : Dev nD → PrngReg)

/-! ## The two halves of a total -/

/-- A half's part of a total, with the half's rows named by any map `f` that sends row `r` of the half to row
    `16384 h + r` of the whole array. -/
theorem half_rows (q : Fin 4) (hh : Fin 2) (X2 : S2d.Idx → EReal) (T2 : S2d.Idx → BitVec 32)
    (f : Fin 16384 → Fin 32768) (hf : ∀ r, (f r).val = 16384 * hh.val + r.val) :
    half q hh X2 T2 = ∑ r : Fin 16384, ∑ l : Fin 1024, term q (X2 (ix2 (f r) l)) (T2 (ix2 (f r) l)) := by
  unfold half
  refine Finset.sum_congr rfl fun r _ => ?_
  have e : (⟨16384 * hh.val + r.val, by have := hh.isLt; have := r.isLt; omega⟩ : Fin 32768) = f r :=
    Fin.ext (hf r).symm
  rw [e]

/-- The two halves of a total make the total over all rows of the row-major arrays: the sum over the index set
    [32768, 1024] is the double sum over rows and lanes, and the 32768 = 16384 + 16384 rows are the first half's
    followed by the second half's. -/
theorem halves_rows (q : Fin 4) (X2 : S2d.Idx → EReal) (T2 : S2d.Idx → BitVec 32) :
    half q 0 X2 T2 + half q 1 X2 T2 = ∑ k : S2d.Idx, term q (X2 k) (T2 k) := by
  rw [half_rows q 0 X2 T2 (fun r => Fin.castAdd 16384 r) (fun r => by show r.val = 16384 * 0 + r.val; omega),
    half_rows q 1 X2 T2 (fun r => Fin.natAdd 16384 r) (fun r => by show 16384 + r.val = 16384 * 1 + r.val; omega),
    sum_idx2 (fun k : S2d.Idx => term q (X2 k) (T2 k))]
  exact (Fin.sum_univ_add (fun a : Fin (16384 + 16384) => ∑ l : Fin 1024, term q (X2 (ix2 a l)) (T2 (ix2 a l)))).symm

/-- The two halves of a total make the total over all pixels of the reshaped arguments. -/
theorem halves_total (q : Fin 4) (X : S4d.Idx → EReal) (T : S4d.Idx → BitVec 32) (h : S4d.ShapeCasts S2d) :
    half q 0 (shapeCast S2d X h) (shapeCast S2d T h) + half q 1 (shapeCast S2d X h) (shapeCast S2d T h) = total q X T := by
  -- a reshaped array at `k` is the array at the pixel matched with `k`, and the matching is a bijection
  rw [halves_rows]
  unfold total
  exact Equiv.sum_comp (Shape.reshapeEquiv h) (fun j : S4d.Idx => term q (X j) (T j))

/-- Row `8 h + q` of the result array is half `h`'s part of total `q`, in every lane. -/
theorem outArr_at (X2 : S2d.Idx → EReal) (T2 : S2d.Idx → BitVec 32) (q : Fin 4) (hh : Fin 2) (j : SOut.Idx)
    (hj : (j 0).val = 8 * hh.val + q.val) : outArr X2 T2 j = half q hh X2 T2 := by
  have hq : (j 0).val % 8 < 4 := by have := q.isLt; have := hh.isLt; omega
  have e1 : (⟨(j 0).val % 8, hq⟩ : Fin 4) = q := Fin.ext (by show (j 0).val % 8 = q.val; have := q.isLt; omega)
  have e2 : ∀ p, (⟨(j 0).val / 8, p⟩ : Fin 2) = hh := fun p =>
    Fin.ext (by show (j 0).val / 8 = hh.val; have := q.isLt; omega)
  unfold outArr
  rw [dif_pos hq, e1, e2]

/-! ## The host operations after the region -/

/-- A [1, 1] block can be cut from a [16, 128] array at row `o`, lane 0 only if row `o` exists. -/
theorem pick_lt {o : Nat} (hs : S16x128.Slices ![o, 0] S1x1) : o < 16 := by
  have h := hs.2 0
  change o + 1 ≤ 16 at h
  omega

/-- The entry at row `o`, lane 0 of a [16, 128] array, cut out as a [1, 1] block and reshaped to a scalar: the
    block's one index has both coordinates 0, so the cut reads the array at the offsets themselves. -/
theorem pick (O : SOut.Idx → EReal) (o : Nat) (hs : S16x128.Slices ![o, 0] S1x1) (hc : S1x1.ShapeCasts S_)
    (i : S_.Idx) :
    shapeCast S_ (extractStridedSlice S1x1 ![o, 0] O hs) hc i = O (ix2 ⟨o, pick_lt hs⟩ 0) := by
  unfold shapeCast
  refine extractStridedSlice_apply _ _ _ _ _ fun a => ?_
  match a with
  | ⟨0, _⟩ =>
    have h0 : ((Shape.reshapeEquiv hc i) 0).val < 1 := ((Shape.reshapeEquiv hc i) 0).isLt
    show o = o + ((Shape.reshapeEquiv hc i) 0).val
    omega
  | ⟨1, _⟩ =>
    have h1 : ((Shape.reshapeEquiv hc i) 1).val < 1 := ((Shape.reshapeEquiv hc i) 1).isLt
    show 0 = 0 + ((Shape.reshapeEquiv hc i) 1).val
    omega

set_option maxHeartbeats 4000000 in
/-- The host operations after the region, read at the result: from any contents whose [16, 128] result array is `O`,
    the four totals are the sums of rows `q` and `8 + q` at lane 0 and the result is the loss over them.

    With `a`, `b`, `c`, `d` the four sums the operations compute, in order: `1 / ((N - a) + ε)²` and `1 / (a + ε)²`
    (the two class weights), the weighted intersection `w₁ b`, the weighted denominator `w₀ (c - d) + w₁ (d + a)`, and
    `1 - (2 I + ε) / (D + ε)`: `Spec.resK a b c d` with every definition unfolded. -/
theorem tail_of (W : Valuation τ sig (Elt Ideal)) (O : SOut.Idx → EReal)
    (hW : (W (Proc.devRef .tc main_v2) : SOut.Idx → EReal) = O) :
    (StableHlo.after (hostOps1 (F := Ideal)) W (Proc.devRef .tc main_v40) : S_.Idx → EReal)
      = fun _ => resK (O (ix2 0 0) + O (ix2 8 0)) (O (ix2 1 0) + O (ix2 9 0))
                      (O (ix2 2 0) + O (ix2 10 0)) (O (ix2 3 0) + O (ix2 11 0)) := by
  -- each operation's result buffer holds its function of its operands' buffers; only the region's result array is left
  after_results_simp
  rw [hW]
  funext i
  -- at the one scalar index every operation is the extended reals' own, which is how `resK` is written
  show resK (shapeCast S_ (extractStridedSlice S1x1 ![0, 0] O _) _ i + shapeCast S_ (extractStridedSlice S1x1 ![8, 0] O _) _ i)
            (shapeCast S_ (extractStridedSlice S1x1 ![1, 0] O _) _ i + shapeCast S_ (extractStridedSlice S1x1 ![9, 0] O _) _ i)
            (shapeCast S_ (extractStridedSlice S1x1 ![2, 0] O _) _ i + shapeCast S_ (extractStridedSlice S1x1 ![10, 0] O _) _ i)
            (shapeCast S_ (extractStridedSlice S1x1 ![3, 0] O _) _ i + shapeCast S_ (extractStridedSlice S1x1 ![11, 0] O _) _ i)
        = _
  rw [pick, pick, pick, pick, pick, pick, pick, pick]
  rfl

/-! ## The arrays the region reads -/

/-- The first window's array as the region finds it: the score argument reshaped to rows of 1024 lanes. -/
theorem V_main_v0 (c : Dev nD) :
    (V m c main_v0 : S2d.Idx → EReal)
      = shapeCast S2d (m ((c : Thread nD τ).loc main_arg0)) Facts₀.shapeCasts_S32x1x1024x1024_S32768x1024 := by
  show StableHlo.after hostOps0 (fun b => m (c, b)) (Proc.devRef .tc main_v0) = _
  after_results
  rfl

/-- The second window's array as the region finds it: the label argument reshaped the same way. -/
theorem V_main_v1 (c : Dev nD) :
    (V m c main_v1 : S2d.Idx → BitVec 32)
      = shapeCast S2d (m ((c : Thread nD τ).loc main_arg1)) Facts₀.shapeCasts_S32x1x1024x1024_S32768x1024 := by
  show StableHlo.after hostOps0 (fun b => m (c, b)) (Proc.devRef .tc main_v1) = _
  after_results
  rfl

/-- The two halves of total `q` over the arrays the region reads make total `q` over the arguments. -/
theorem halves_V (c : Dev nD) (q : Fin 4) :
    half q 0 (V m c main_v0) (V m c main_v1) + half q 1 (V m c main_v0) (V m c main_v1)
      = total q (m ((c : Thread nD τ).loc main_arg0)) (m ((c : Thread nD τ).loc main_arg1)) := by
  rw [V_main_v0, V_main_v1]
  exact halves_total q _ _ _

/-! ## The result -/

/-- What the lines after the region leave in the result buffer: the loss over the four totals of the arguments. -/
theorem tail_eq (c : Dev nD) :
    Pipeline.afterTail₀ cfgs (dats (F := Ideal) m) 0 (V0 m) [hostOps1] c main_v40
      = (fun _ => resK (total 0 (m ((c : Thread nD τ).loc main_arg0)) (m ((c : Thread nD τ).loc main_arg1)))
                        (total 1 (m ((c : Thread nD τ).loc main_arg0)) (m ((c : Thread nD τ).loc main_arg1)))
                        (total 2 (m ((c : Thread nD τ).loc main_arg0)) (m ((c : Thread nD τ).loc main_arg1)))
                        (total 3 (m ((c : Thread nD τ).loc main_arg0)) (m ((c : Thread nD τ).loc main_arg1)))) := by
  unfold Pipeline.afterTail₀
  show StableHlo.after hostOps1 _ (Proc.devRef .tc main_v40) = _
  -- the lines start from the region's exit contents, whose result array is `outArr` of the two arrays it read
  refine (tail_of _ (outArr (V m c main_v0) (V m c main_v1)) ?_).trans ?_
  · -- the result array is the third window's, and the region leaves in it what `KAcc.final` says
    exact (Pipeline.withArrays_arr spec0 launch0.win.arr_inj c _ _ 2).trans (KAcc.final m c)
  · -- rows 0 to 3 are the first half's parts, rows 8 to 11 the second half's
    rw [outArr_at _ _ 0 0 (ix2 0 0) (by decide), outArr_at _ _ 0 1 (ix2 8 0) (by decide),
      outArr_at _ _ 1 0 (ix2 1 0) (by decide), outArr_at _ _ 1 1 (ix2 9 0) (by decide),
      outArr_at _ _ 2 0 (ix2 2 0) (by decide), outArr_at _ _ 2 1 (ix2 10 0) (by decide),
      outArr_at _ _ 3 0 (ix2 3 0) (by decide), outArr_at _ _ 3 1 (ix2 11 0) (by decide),
      halves_V m c 0, halves_V m c 1, halves_V m c 2, halves_V m c 3]

/-- Every weakly fair execution ends with the result at the loss over the four totals of the argument arrays, and the
    arguments unchanged. -/
theorem run : θ_run defs (onTc (τ := τ) (main (F := Ideal))) ⟨m, fun _ => 0, ρ⟩ fun r => ∀ c : Dev nD,
      r.2.mem ((c : Thread nD τ).loc main_v40)
        = (fun _ => resK (total 0 (m ((c : Thread nD τ).loc main_arg0)) (m ((c : Thread nD τ).loc main_arg1)))
                        (total 1 (m ((c : Thread nD τ).loc main_arg0)) (m ((c : Thread nD τ).loc main_arg1)))
                        (total 2 (m ((c : Thread nD τ).loc main_arg0)) (m ((c : Thread nD τ).loc main_arg1)))
                        (total 3 (m ((c : Thread nD τ).loc main_arg0)) (m ((c : Thread nD τ).loc main_arg1))))
      ∧ r.2.mem ((c : Thread nD τ).loc main_arg0) = m ((c : Thread nD τ).loc main_arg0)
      ∧ r.2.mem ((c : Thread nD τ).loc main_arg1) = m ((c : Thread nD τ).loc main_arg1) :=
  -- the result buffer and the two arguments are unscoped and no window's array: the frame run's post states each at
  -- what the lines after the region leave there, and those lines write neither argument
  (θ_run defs _ _).mono (fun r h c =>
    ⟨((h c).2 main_v40 (Pipeline.mem_restRefs_of main_v40 (by decide) (by decide))).trans (tail_eq m c),
     ((h c).2 main_arg0 (Pipeline.mem_restRefs_of main_arg0 (by decide) (by decide))).trans (W_main_arg0 m (dats m) c),
     ((h c).2 main_arg1 (Pipeline.mem_restRefs_of main_arg1 (by decide) (by decide))).trans (W_main_arg1 m (dats m) c)⟩)
    (run_main m ρ)

end Cert.KernelIdeal.KTail

end
-- ==== Proof.LibScatterCount.lean ====
/-
  A histogram by scatter: adding one at the position each index names counts how often each position is named.

  `Host.scatter` with an integer `add` body folds over the updates in row-major order; every update whose index lies
  inside the operand adds its value at that position, the others are dropped. With a column of `n` indices into a
  line of `K` bins and every update equal to one, bin `b` ends at its initial value plus the number of positions `p`
  whose index, read signed, is `b` (as a 32-bit word: the count is taken modulo 2³²).

  The argument has three parts, none of which looks at the size of `n`:

  * where an update lands. With one scattered operand axis, that axis inserted, and the index vector on axis 1 of the
    index column, update `j` has start `idx[j, 0]` read signed and window coordinate 0, so it lands on bin `idx[j, 0]`
    when `0 ≤ idx[j, 0] < K` and is dropped otherwise (`siIdx_col`, `start_col`, `window_none`, `sum_col`,
    `resultIdx_some`, `resultIdx_none`);
  * what a fold of such steps does to one bin. A step changes bin `b` only when its update lands on `b`, and then by
    adding one; by induction over the list of updates, the fold adds to bin `b` the number of list elements that land
    on it (`foldl_add_count`);
  * what that number is over the whole row-major enumeration. The enumeration meets every position `p < n` exactly
    once, so the number of enumerated updates landing on `b` is the number of `p` with `idx[p, 0] = b` (`count_rows`).
-/
import Idealize.ShloMosaic.PureOps
import Idealize.ShloMosaic.Lib.ValueIdx
import Idealize.ShloMosaic.Lib.StableHlo.Predicate

noncomputable section

open scoped BigOperators
open Idealize.ShloMosaic Idealize.ShloMosaic.ValueIdx

namespace Cert.LibScatterCount

/-! ### Where an update lands -/

open StableHlo.Predicate in
/-- With the index vector on axis 1 of an [n × 1] index column and one scattered operand axis, update `j` reads its one
    start component at row `j 0` of the column: the update's only axis is its scatter axis and goes to the column's
    axis 0, and the component number, below the length 1 of the axis map, is 0. -/
theorem siIdx_col {K n : Nat} (d : ScatterDims ⟨1, ![K]⟩ ⟨2, ![n, 1]⟩ ⟨1, ![n]⟩)
    (hsd : d.scatterDimsToOperandDims = [0]) (hivd : d.indexVectorDim = 1)
    (j : (⟨1, ![n]⟩ : Shape).Idx) (c : Fin d.scatterDimsToOperandDims.length) :
    d.siIdx j c = ixP (j 0) := by
  funext b
  match b with
  | ⟨0, _⟩ =>
    -- axis 0 is not the index vector's: its coordinate is the update's coordinate on its one (scatter) axis
    unfold ScatterDims.siIdx
    rw [dif_neg (by rw [hivd]; simp)]
    unfold ScatterDims.siCoord
    apply Fin.ext
    simp only [Fin.val_cast]
    have e : ∀ X : Fin 1, (j X).val = (j 0).val := fun X => by
      have hX : X = 0 := Subsingleton.elim _ _
      subst hX; rfl
    exact e _
  | ⟨1, _⟩ =>
    -- axis 1 is the index vector's: its coordinate is the component number, and there is one component
    unfold ScatterDims.siIdx
    rw [dif_pos (by rw [hivd])]
    apply Fin.ext
    have hl : d.scatterDimsToOperandDims.length = 1 := by rw [hsd]; rfl
    have := c.isLt
    show c.val = 0
    omega

open StableHlo.Predicate in
/-- The start of update `j`'s window on the operand's one axis is the index at row `j 0` of the column, read signed:
    the axis map names that axis. -/
theorem start_col {K n : Nat} (d : ScatterDims ⟨1, ![K]⟩ ⟨2, ![n, 1]⟩ ⟨1, ![n]⟩)
    (hsd : d.scatterDimsToOperandDims = [0]) (hivd : d.indexVectorDim = 1)
    (idx : IVec ⟨2, ![n, 1]⟩ 32) (j : (⟨1, ![n]⟩ : Shape).Idx) (a : Fin (⟨1, ![K]⟩ : Shape).rank) :
    d.start j idx a = (idx (ixP (j 0))).toInt := by
  have ha : a ∈ d.scatterDimsToOperandDims := by
    rw [hsd]
    have h0 : a = 0 := Subsingleton.elim _ _
    subst h0
    exact List.mem_singleton.mpr rfl
  unfold ScatterDims.start
  rw [dif_pos ha, siIdx_col d hsd hivd]
  rfl

/-- The window coordinate on the operand's one axis is 0: that axis is an inserted window axis, so no axis of the
    update is a window axis going to it. -/
theorem window_none {K n : Nat} (d : ScatterDims ⟨1, ![K]⟩ ⟨2, ![n, 1]⟩ ⟨1, ![n]⟩)
    (hiw : d.insertedWindowDims = [0])
    (j : (⟨1, ![n]⟩ : Shape).Idx) (a : Fin (⟨1, ![K]⟩ : Shape).rank) :
    d.window j a = 0 := by
  have ha : a ∉ d.sKept := by
    have h0 : a = 0 := Subsingleton.elim _ _
    subst h0
    simp [ScatterDims.sKept, Shape.kept, hiw]
  unfold ScatterDims.window
  rw [dif_neg ha]

open StableHlo.Predicate in
/-- Start plus window coordinate, the position update `j` aims at on the operand's one axis, is the signed index at
    row `j 0`. -/
theorem sum_col {K n : Nat} (d : ScatterDims ⟨1, ![K]⟩ ⟨2, ![n, 1]⟩ ⟨1, ![n]⟩)
    (hiw : d.insertedWindowDims = [0]) (hsd : d.scatterDimsToOperandDims = [0]) (hivd : d.indexVectorDim = 1)
    (idx : IVec ⟨2, ![n, 1]⟩ 32) (j : (⟨1, ![n]⟩ : Shape).Idx) (a : Fin (⟨1, ![K]⟩ : Shape).rank) :
    d.start j idx a + (d.window j a : Int) = (idx (ixP (j 0))).toInt := by
  rw [start_col d hsd hivd, window_none d hiw]; simp

open StableHlo.Predicate in
/-- An update that lands, lands on bin `b` exactly when its signed index is `b`: the landing position is the index,
    which is then non-negative, taken as a natural number. -/
theorem resultIdx_some {K n : Nat} (d : ScatterDims ⟨1, ![K]⟩ ⟨2, ![n, 1]⟩ ⟨1, ![n]⟩)
    (hiw : d.insertedWindowDims = [0]) (hsd : d.scatterDimsToOperandDims = [0]) (hivd : d.indexVectorDim = 1)
    (idx : IVec ⟨2, ![n, 1]⟩ 32) (j : (⟨1, ![n]⟩ : Shape).Idx) (i : (⟨1, ![K]⟩ : Shape).Idx)
    (h : d.resultIdx? j idx = some i) (b : Fin K) :
    ix1 b = i ↔ (idx (ixP (j 0))).toInt = (b.val : Int) := by
  unfold ScatterDims.resultIdx? at h
  split at h
  · next hin =>
    have hi := Option.some.inj h
    -- inside the operand: 0 ≤ index < K
    have h0 := hin 0
    rw [sum_col d hiw hsd hivd] at h0
    -- and the landing coordinate is that index as a natural number
    have hv : (i 0).val = (idx (ixP (j 0))).toInt.toNat := by
      rw [← hi]
      show (d.start j idx 0 + (d.window j 0 : Int)).toNat = _
      rw [sum_col d hiw hsd hivd]
    constructor
    · intro e
      have : b.val = (i 0).val := congrArg (fun f => (f 0).val) e
      omega
    · intro e
      rw [eq_ix1 i]
      congr 1
      apply Fin.ext
      omega
  · exact absurd h (by simp)

open StableHlo.Predicate in
/-- A dropped update's signed index is no bin: it is negative or at least `K`, and every bin `b` has `0 ≤ b < K`. -/
theorem resultIdx_none {K n : Nat} (d : ScatterDims ⟨1, ![K]⟩ ⟨2, ![n, 1]⟩ ⟨1, ![n]⟩)
    (hiw : d.insertedWindowDims = [0]) (hsd : d.scatterDimsToOperandDims = [0]) (hivd : d.indexVectorDim = 1)
    (idx : IVec ⟨2, ![n, 1]⟩ 32) (j : (⟨1, ![n]⟩ : Shape).Idx)
    (h : d.resultIdx? j idx = none) (b : Fin K) :
    (idx (ixP (j 0))).toInt ≠ (b.val : Int) := by
  intro e
  unfold ScatterDims.resultIdx? at h
  split at h
  · exact absurd h (by simp)
  · next hout =>
    -- were the index `b`, it would be inside the operand and the update would land
    apply hout
    intro a
    have h0 : a = 0 := Subsingleton.elim _ _
    subst h0
    rw [sum_col d hiw hsd hivd, e]
    have := b.isLt
    show (0 : Int) ≤ b.val ∧ (b.val : Int) < (K : Nat)
    omega

/-! ### A fold of steps that add one at a position -/

/-- A left fold whose step adds one at position `c` exactly on the list elements that pass the test `T`, and leaves
    position `c` as it was on the others, ends at the initial value there plus the number of elements that pass. -/
theorem foldl_add_count {ι β : Type} (F : (β → BitVec 32) → ι → β → BitVec 32) (c : β) (T : ι → Bool)
    (hF : ∀ r m, F r m c = if T m = true then r c + 1#32 else r c) (L : List ι) (r : β → BitVec 32) :
    (L.foldl F r) c = r c + BitVec.ofNat 32 (L.countP T) := by
  induction L generalizing r with
  | nil => simp
  | cons m L ih =>
    -- the tail's fold starts from the head's step: (r c [+ 1]) + #tail = r c + (#tail [+ 1])
    rw [List.foldl_cons, ih, hF, List.countP_cons]
    by_cases hT : T m = true
    · rw [if_pos hT, if_pos hT, BitVec.ofNat_add, BitVec.add_assoc]
      congr 1
      exact BitVec.add_comm _ _
    · rw [if_neg hT, if_neg hT, Nat.add_zero]

/-! ### The row-major enumeration of a line meets every position once -/

/-- Counting, along the row-major enumeration of a line of `n` positions, the positions whose coordinate passes a test
    is counting the coordinates `p < n` that pass it: the enumeration meets every coordinate exactly once. -/
theorem count_rows {n : Nat} (P : Fin n → Bool) :
    (List.finRange (⟨1, ![n]⟩ : Shape).numel).countP (fun m => P (((⟨1, ![n]⟩ : Shape).rowMajor.symm m) 0))
      = (Finset.univ.filter fun p : Fin n => P p = true).card := by
  -- the enumeration has no repeats, so the count is the size of the set of enumerated numbers that pass
  rw [List.countP_eq_length_filter, ← List.toFinset_card_of_nodup ((List.nodup_finRange _).filter _),
    List.toFinset_filter, List.toFinset_finRange]
  -- and a number's coordinate is a bijection from the numbers onto the coordinates
  refine Finset.card_bij (fun m _ => ((⟨1, ![n]⟩ : Shape).rowMajor.symm m) 0) ?_ ?_ ?_
  · intro m hm
    exact Finset.mem_filter.2 ⟨Finset.mem_univ _, (Finset.mem_filter.1 hm).2⟩
  · intro m _ m' _ e
    apply (⟨1, ![n]⟩ : Shape).rowMajor.symm.injective
    rw [eq_ix1 ((⟨1, ![n]⟩ : Shape).rowMajor.symm m), eq_ix1 ((⟨1, ![n]⟩ : Shape).rowMajor.symm m'), e]
  · intro p hp
    refine ⟨(⟨1, ![n]⟩ : Shape).rowMajor (ix1 p), Finset.mem_filter.2 ⟨Finset.mem_univ _, ?_⟩, ?_⟩
    · rw [Equiv.symm_apply_apply]; exact (Finset.mem_filter.1 hp).2
    · rw [Equiv.symm_apply_apply]; rfl

/-! ### The histogram -/

/-- Bin `b` of a scatter of ones along a column of indices: its initial word plus the number of rows whose index is `b`. -/
theorem scatter_ones_count {K n : Nat} (d : ScatterDims ⟨1, ![K]⟩ ⟨2, ![n, 1]⟩ ⟨1, ![n]⟩)
    (huw : d.updateWindowDims = []) (hiw : d.insertedWindowDims = [0]) (hsd : d.scatterDimsToOperandDims = [0])
    (hivd : d.indexVectorDim = 1)
    (x : (⟨1, ![K]⟩ : Shape).Idx → BitVec 32) (idx : IVec ⟨2, ![n, 1]⟩ 32) (b : Fin K) :
    Host.scatter d IntOp.addi x idx (fun _ => 1#32) (ix1 b)
      = x (ix1 b) + BitVec.ofNat 32 (Finset.univ.filter fun p : Fin n => (idx (StableHlo.Predicate.ixP p)).toInt = (b.val : Int)).card := by
  unfold Host.scatter
  -- the scatter is a left fold over the enumerated updates; the test on update number `m` is "its index is `b`"
  refine (foldl_add_count _ (ix1 b)
    (fun m => decide ((idx (StableHlo.Predicate.ixP (((⟨1, ![n]⟩ : Shape).rowMajor.symm m) 0))).toInt = (b.val : Int)))
    ?_ _ x).trans ?_
  · -- one step, read at bin `b`
    intro r m
    beta_reduce
    cases hres : d.resultIdx? ((⟨1, ![n]⟩ : Shape).rowMajor.symm m) idx with
    | none =>
      -- dropped: the bin keeps its value, and the index is not `b`
      have hne := resultIdx_none d hiw hsd hivd idx _ hres b
      show r (ix1 b) = _
      rw [if_neg (fun h => hne (of_decide_eq_true h))]
    | some i =>
      -- landed on `i`: bin `b` gains one when `i` is `b`, that is when the index is `b`, and keeps its value otherwise
      have hiff := resultIdx_some d hiw hsd hivd idx _ i hres b
      show (if ix1 b = i then IntOp.addi (r i) 1#32 else r (ix1 b)) = _
      by_cases hb : ix1 b = i
      · rw [if_pos hb, if_pos (decide_eq_true (hiff.1 hb)), ← hb]
        rfl
      · rw [if_neg hb, if_neg (fun h => hb (hiff.2 (of_decide_eq_true h)))]
  · -- the number of enumerated updates whose index is `b` is the number of rows whose index is `b`
    rw [count_rows fun p => decide ((idx (StableHlo.Predicate.ixP p)).toInt = (b.val : Int))]
    simp only [decide_eq_true_eq]

end Cert.LibScatterCount

end
-- ==== Proof.RValue.lean ====
/-
  The reference's run, read to its result on binary labels: the loss pixel by pixel.

  With every label 0 or 1 the clamp and the wrap of negative indices leave the labels as they are; the histogram (a
  scatter of ones into two zero bins) holds the two class counts; the gather selects each pixel's class weight by its
  label; the two whole-array sums run over the flattened pixels, which are the argument's pixels in row-major order.
-/
import proofs.«403192_j4870492913844_3_alg».proof.Proof.Gen.ReferenceIdeal.Run
import proofs.«403192_j4870492913844_3_alg».proof.Proof.Gen.ReferenceIdeal.Read
import proofs.«403192_j4870492913844_3_alg».proof.Proof.Spec
import proofs.«403192_j4870492913844_3_alg».proof.Proof.LibScatterCount
import Idealize.ShloMosaic.PureOps.Ideal.Laws
import Idealize.ShloMosaic.Lib.StableHlo.Predicate
import Idealize.ShloMosaic.Lib.ValueIdx
import Idealize.ShloMosaic.Lib.IdealHost
import Idealize.ShloMosaic.Lib.StableHlo.Run

noncomputable section

open scoped BigOperators
open Idealize.ShloMosaic Idealize.ShloMosaic.TcCoe Idealize.SL.Sem Idealize.ShloMosaic.ValueIdx

namespace Cert.ReferenceIdeal.RValue

open Cert.ReferenceIdeal Cert.ReferenceIdeal.Gen Cert.Spec Cert.ReferenceIdeal.Read
open Idealize.ShloMosaic.StableHlo.Predicate (ixP)

/-! ### Flat positions and pixels -/

/-- The flattening: position `i` of the line of 2²⁵ entries is the pixel with the same row-major position. -/
abbrev flat : S33554432.Idx ≃ S4d.Idx := Shape.reshapeEquiv shapeCasts_S32x1x1024x1024_S33554432

/-- A line's index is its one coordinate. -/
def lineEquiv : Fin 33554432 ≃ S33554432.Idx where
  toFun k := ix1 k
  invFun i := i 0
  left_inv _ := rfl
  right_inv i := (eq_ix1 i).symm

/-- The pixel at flat position `k`. -/
abbrev pix (k : Fin 33554432) : S4d.Idx := flat (ix1 k)

/-- Row `p` of the index column sits at position `p` of the line it was made from. -/
theorem col16 (p : Fin 33554432) : idx_main_v16 (ixP p) = ix1 p := funext fun a => match a with | ⟨0, _⟩ => rfl
theorem col30 (p : Fin 33554432) : idx_main_v30 (ixP p) = ix1 p := funext fun a => match a with | ⟨0, _⟩ => rfl

/-! ### Labels that are 0 or 1 pass the clamp and the wrap unchanged -/

/-- The larger of 0 and a binary label is the label. -/
theorem clip_binary (w : BitVec 32) (hw : w = 0#32 ∨ w = 1#32) : IntOp.maxsi 0#32 w = w := by
  rcases hw with rfl | rfl <;> rfl

/-- A binary label is not negative, so "add 2 if negative" keeps it. -/
theorem wrap_binary (w : BitVec 32) (hw : w = 0#32 ∨ w = 1#32) :
    Scalar.select (IntOp.cmpi .slt w 0#32) (IntOp.addi w 2#32) w = w := by
  rcases hw with rfl | rfl <;> rfl

variable (T : S4d.Idx → BitVec 32)

/-- The flattened labels. -/
theorem v7_at (i : S33554432.Idx) : val_main_v7 (F := Ideal) T i = T (flat i) := rfl

/-- The histogram's indices: clamped below at 0, wrapped if negative — the labels themselves. -/
theorem v15_at (hT : ∀ j, T j = 0#32 ∨ T j = 1#32) (i : S33554432.Idx) :
    val_main_v15 (F := Ideal) T i = T (flat i) := by
  rw [val_main_v15_apply, val_main_v12_apply, val_main_v14_apply, val_main_v10_apply, val_main_v11_apply,
    val_main_v13_apply, val_main_call0_v1_apply, val_main_call0_v0_apply, val_main_c_1_apply, val_main_c_2_apply,
    val_main_c_3_apply, v7_at, clip_binary _ (hT _)]
  exact wrap_binary _ (hT _)

/-- The gather's indices: wrapped if negative — the labels themselves. -/
theorem v29_at (hT : ∀ j, T j = 0#32 ∨ T j = 1#32) (i : S33554432.Idx) :
    val_main_v29 (F := Ideal) T i = T (flat i) := by
  rw [val_main_v29_apply, val_main_v26_apply, val_main_v28_apply, val_main_v25_apply, val_main_v27_apply,
    val_main_c_7_apply, val_main_c_8_apply, v7_at]
  exact wrap_binary _ (hT _)

/-- Row `p` of the histogram's index column is pixel `p`'s label. -/
theorem v16_at (hT : ∀ j, T j = 0#32 ∨ T j = 1#32) (p : Fin 33554432) :
    val_main_v16 (F := Ideal) T (ixP p) = T (pix p) := by
  rw [val_main_v16_apply, col16]
  exact v15_at T hT (ix1 p)

/-- Row `p` of the gather's index column is pixel `p`'s label. -/
theorem v30_at (hT : ∀ j, T j = 0#32 ∨ T j = 1#32) (p : Fin 33554432) :
    val_main_v30 (F := Ideal) T (ixP p) = T (pix p) := by
  rw [val_main_v30_apply, col30]
  exact v29_at T hT (ix1 p)

/-! ### Counting -/

/-- A bijection carries a count over: as many `a` with `P (g a)` as `b` with `P b`. -/
theorem card_filter_comp {α β : Type} [Fintype α] [Fintype β] (g : α ≃ β) (P : β → Prop) [DecidablePred P] :
    (Finset.univ.filter fun a => P (g a)).card = (Finset.univ.filter P).card :=
  Finset.card_bij (fun a _ => g a)
    (fun a ha => Finset.mem_filter.2 ⟨Finset.mem_univ _, (Finset.mem_filter.1 ha).2⟩)
    (fun _ _ _ _ h => g.injective h)
    (fun b hb => ⟨g.symm b,
      Finset.mem_filter.2 ⟨Finset.mem_univ _, by rw [g.apply_symm_apply]; exact (Finset.mem_filter.1 hb).2⟩,
      g.apply_symm_apply b⟩)

/-- For a binary label, "read as a signed integer it is `b`" says "it is the word `b`". -/
theorem toInt_eq_iff (w : BitVec 32) (hw : w = 0#32 ∨ w = 1#32) (b : Fin 2) :
    w.toInt = (b.val : Int) ↔ w = BitVec.ofNat 32 b.val := by
  rcases hw with rfl | rfl <;> fin_cases b <;> decide

/-- A natural number up to 2²⁵ survives the trip through a 32-bit word read signed. -/
theorem toInt_ofNat_small (c : ℕ) (hc : c ≤ 33554432) : (BitVec.ofNat 32 c).toInt = (c : Int) := by
  have h1 : (BitVec.ofNat 32 c).toNat = c := by rw [BitVec.toNat_ofNat]; omega
  rw [BitVec.toInt_eq_toNat_of_lt (by rw [h1]; omega), h1]

/-- So converting such a count's word to a float gives the count. -/
theorem sitofp_ofNat_small (c : ℕ) (hc : c ≤ 33554432) :
    FloatOps.sitofp (F := Ideal) .f32 (BitVec.ofNat 32 c) = ((c : ℝ) : EReal) := by
  show (((BitVec.ofNat 32 c).toInt : ℝ) : EReal) = _
  rw [toInt_ofNat_small c hc, Int.cast_natCast]

/-- The rows of the index column whose entry is `b` are as many as the pixels labelled `b`: row `p` holds pixel
    `p`'s label, and rows and pixels correspond one to one. -/
theorem count_flat (hT : ∀ j, T j = 0#32 ∨ T j = 1#32) (b : Fin 2) :
    (Finset.univ.filter fun p : Fin 33554432 => (val_main_v16 (F := Ideal) T (ixP p)).toInt = (b.val : Int)).card
      = cnt T (BitVec.ofNat 32 b.val) := by
  unfold cnt
  refine Eq.trans ?_ (card_filter_comp (lineEquiv.trans flat) (fun j => T j = BitVec.ofNat 32 b.val))
  refine congrArg Finset.card (Finset.filter_congr fun p _ => ?_)
  rw [v16_at T hT p]
  exact toInt_eq_iff _ (hT _) b

/-- A class count is at most the number of pixels. -/
theorem cnt_le (hT : ∀ j, T j = 0#32 ∨ T j = 1#32) (b : Fin 2) : cnt T (BitVec.ofNat 32 b.val) ≤ 33554432 := by
  rw [← count_flat T hT b]
  exact (Finset.card_le_univ _).trans_eq (Fintype.card_fin _)

/-! ### The histogram and the class weights -/

/-- Bin `b` of the histogram: a scatter of ones into zeros along the labels counts the pixels labelled `b`. -/
theorem v18_at (hT : ∀ j, T j = 0#32 ∨ T j = 1#32) (b : Fin 2) :
    val_main_v18 (F := Ideal) T (ix1 b) = BitVec.ofNat 32 (cnt T (BitVec.ofNat 32 b.val)) := by
  have hones : val_main_v17 (F := Ideal) = fun _ => 1#32 :=
    funext fun i => by rw [val_main_v17_apply, val_main_c_4_apply]
  unfold val_main_v18
  rw [hones, Cert.LibScatterCount.scatter_ones_count _ rfl rfl rfl rfl, val_main_v9_apply, val_main_c_apply,
    BitVec.zero_add, count_flat T hT b]

/-- Entry `b` of the weight table: `1 / (count + ε)²` of class `b`'s count. -/
theorem v24_at (hT : ∀ j, T j = 0#32 ∨ T j = 1#32) (b : Fin 2) :
    val_main_v24 (F := Ideal) T (ix1 b) = weight (((cnt T (BitVec.ofNat 32 b.val) : ℕ) : ℝ) : EReal) := by
  rw [val_main_v24_apply, val_main_v23_apply, val_main_cst_6_apply, val_main_v22_apply, val_main_v21_apply,
    val_main_v20_apply, val_main_cst_5_apply, val_main_v19_apply, v18_at T hT b,
    sitofp_ofNat_small _ (cnt_le T hT b)]
  rfl

/-! ### The gather: each pixel's class weight -/

/-- A line's index built from its coordinate, either way of writing it. -/
theorem ofFin_eq {n : Nat} (k : Fin n) : Shape.Idx.ofFin k = ix1 k := funext fun a => match a with | ⟨0, _⟩ => rfl

/-- A two-entry table read at a binary label (read signed, clamped into the table): entry 1 at label 1, entry 0 at
    label 0. -/
theorem take_binary (x : S2.Idx → EReal) (w : BitVec 32) (hw : w = 0#32 ∨ w = 1#32)
    (h : min w.toInt.toNat (2 - 1) < 2) :
    x (Shape.Idx.ofFin ⟨min w.toInt.toNat (2 - 1), h⟩) = if w = 1#32 then x (ix1 1) else x (ix1 0) := by
  rcases hw with rfl | rfl
  · rw [if_neg (by decide)]
    exact congrArg x (funext fun a => match a with | ⟨0, _⟩ => rfl)
  · rw [if_pos rfl]
    exact congrArg x (funext fun a => match a with | ⟨0, _⟩ => rfl)

/-- Position `p` of the gathered weights: the weight of pixel `p`'s class. -/
theorem v31_at (hT : ∀ j, T j = 0#32 ∨ T j = 1#32) (p : Fin 33554432) :
    val_main_v31 (F := Ideal) T (ix1 p) = wsel T (T (pix p)) := by
  unfold val_main_v31
  refine (congrArg _ (ofFin_eq p).symm).trans ?_
  refine (StableHlo.Predicate.gather_take gather_S2_S33554432x1_S33554432_n_0_n_n_0_1_1 rfl rfl rfl rfl
    (val_main_v24 (F := Ideal) T) (val_main_v30 (F := Ideal) T) p (by decide)).trans ?_
  refine (take_binary (val_main_v24 (F := Ideal) T) (val_main_v30 (F := Ideal) T (ixP p))
    (by rw [v30_at T hT p]; exact hT _) _).trans ?_
  rw [v30_at T hT p, v24_at T hT 1, v24_at T hT 0]
  rfl

/-- The same at any index of the line. -/
theorem v31_flat (hT : ∀ j, T j = 0#32 ∨ T j = 1#32) (i : S33554432.Idx) :
    val_main_v31 (F := Ideal) T i = wsel T (T (flat i)) := by
  obtain ⟨p, rfl⟩ : ∃ p : Fin 33554432, i = ix1 p := ⟨i 0, eq_ix1 i⟩
  exact v31_at T hT p

/-! ### The per-pixel factors -/

variable (X : S4d.Idx → EReal)

/-- `1 / (1 + exp (−x))` with the program's constant one is the logistic function. -/
theorem v5_at (j : S4d.Idx) : val_main_v5 (F := Ideal) X j = prob (X j) := by
  rw [val_main_v5_apply, val_main_v4_apply, val_main_cst_0_apply, val_main_v3_apply, val_main_v2_apply,
    val_main_cst_apply, val_main_v1_apply, val_main_v0_apply]
  show Ideal.div (Ideal.ofBits .f32 0x3F800000#32) (Ideal.ofBits .f32 0x3F800000#32 + Ideal.exp (-(X j)))
    = Ideal.logistic (X j)
  rw [Ideal.ofBits_one_f32]
  rfl

/-- The flattened probabilities. -/
theorem v6_at (i : S33554432.Idx) : val_main_v6 (F := Ideal) X i = prob (X (flat i)) :=
  (show val_main_v6 (F := Ideal) X i = val_main_v5 (F := Ideal) X (flat i) from rfl).trans (v5_at X (flat i))

/-- The flattened labels as numbers. -/
theorem v8_at (i : S33554432.Idx) : val_main_v8 (F := Ideal) T i = lab (T (flat i)) := by
  rw [val_main_v8_apply, v7_at]
  rfl

/-- The intersection's term at a flat position. -/
theorem v33_at (hT : ∀ j, T j = 0#32 ∨ T j = 1#32) (i : S33554432.Idx) :
    val_main_v33 (F := Ideal) X T i = (wsel T (T (flat i)) * prob (X (flat i))) * lab (T (flat i)) := by
  rw [val_main_v33_apply, val_main_v32_apply, v31_flat T hT i, v6_at X i, v8_at T i]
  rfl

/-- The denominator's term at a flat position. -/
theorem v38_at (hT : ∀ j, T j = 0#32 ∨ T j = 1#32) (i : S33554432.Idx) :
    val_main_v38 (F := Ideal) X T i
      = wsel T (T (flat i)) * (prob (X (flat i)) * prob (X (flat i)) + lab (T (flat i)) * lab (T (flat i))) := by
  rw [val_main_v38_apply, val_main_v37_apply, val_main_v35_apply, val_main_v36_apply, v31_flat T hT i, v6_at X i,
    v8_at T i]
  rfl

/-! ### The two sums and the loss -/

/-- The first sum: from zero, over every flat position — which is over every pixel. -/
theorem v34_at (hT : ∀ j, T j = 0#32 ∨ T j = 1#32) (i : S_.Idx) : val_main_v34 (F := Ideal) X T i = iR X T := by
  rw [val_main_v34_apply, val_main_cst_9_apply]
  show Ideal.ofBits .f32 0x00000000#32 + _ = _
  rw [Ideal.ofBits_zero_f32, zero_add]
  exact (Finset.sum_congr rfl fun i _ => v33_at T X hT i).trans
    (Equiv.sum_comp flat fun j => (wsel T (T j) * prob (X j)) * lab (T j))

/-- The second sum likewise. -/
theorem v39_at (hT : ∀ j, T j = 0#32 ∨ T j = 1#32) (i : S_.Idx) : val_main_v39 (F := Ideal) X T i = dR X T := by
  rw [val_main_v39_apply, val_main_cst_10_apply]
  show Ideal.ofBits .f32 0x00000000#32 + _ = _
  rw [Ideal.ofBits_zero_f32, zero_add]
  exact (Finset.sum_congr rfl fun i _ => v38_at T X hT i).trans
    (Equiv.sum_comp flat fun j => wsel T (T j) * (prob (X j) * prob (X j) + lab (T j) * lab (T j)))

/-- The scalar result: `1 − (2 I + ε) / (D + ε)` of the two sums. -/
theorem v44_at (hT : ∀ j, T j = 0#32 ∨ T j = 1#32) (i : S_.Idx) : val_main_v44 (F := Ideal) X T i = resR X T := by
  rw [val_main_v44_apply, val_main_cst_14_apply, val_main_v43_apply, val_main_v41_apply, val_main_v42_apply,
    val_main_v40_apply, val_main_cst_11_apply, val_main_cst_12_apply, val_main_cst_13_apply, v34_at T X hT,
    v39_at T X hT]
  rfl

/-- The result array, whole. -/
theorem v44_eq (hT : ∀ j, T j = 0#32 ∨ T j = 1#32) : val_main_v44 (F := Ideal) X T = fun _ => resR X T :=
  funext fun i => v44_at T X hT i

variable (m : (ℓ : Loc nD τ sig) → Buf (Elt Ideal) ℓ) (ρ : Dev nD → PrngReg)

/-- On binary labels every weakly fair execution ends with the result at the pixel-by-pixel loss of the argument arrays,
    and the arguments unchanged. -/
theorem run (hlab : ∀ (c : Dev nD) (j : S32x1x1024x1024.Idx),
      m ((c : Thread nD τ).loc main_arg1) j = 0#32 ∨ m ((c : Thread nD τ).loc main_arg1) j = 1#32) :
    θ_run defs (onTc (τ := τ) (main (F := Ideal))) ⟨m, fun _ => 0, ρ⟩ fun r => ∀ c : Dev nD,
      r.2.mem ((c : Thread nD τ).loc main_v44)
        = (fun _ => resR (m ((c : Thread nD τ).loc main_arg0)) (m ((c : Thread nD τ).loc main_arg1)))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono
    (fun _ h c => ⟨(h c).1.trans ((val_main_v44_eq m c).trans (v44_eq _ _ (hlab c))), (h c).2⟩)
    (Cert.ReferenceIdeal.Value.run (F := Ideal) m ρ)

end Cert.ReferenceIdeal.RValue

end
-- ==== Proof.Algebra.lean ====
/-
  The two ways of writing the loss agree on binary labels and real scores.

  With every label 0 or 1: the label total is the count of ones, the pixel count minus it the count of zeros (so the
  two class weights coincide); a pixel's weighted term `w[t] · p · t` is `w₁ · (p · t)`, and
  `w[t] · (p² + t²)` is `w₀ · (p² − p² t) + w₁ · (p² t + t)`; summing and moving the two weights out of the sums
  (all terms real: a logistic value is real, a weight is the reciprocal of a positive real) gives the equality.

  The road: every quantity is shown to be the image of a real number in the extended reals — a score by
  hypothesis, a probability because the logistic function of a real is `1 / (1 + e^(-x))`, a binary label because
  it is its own indicator, a weight because `(c + ε)²` is a positive real for a count `c` — so that each side of
  the claim becomes the loss of two coerced reals, and the two pairs of reals are equal by finite-sum algebra in `ℝ`.
-/
import proofs.«403192_j4870492913844_3_alg».proof.Proof.Spec

noncomputable section

open scoped BigOperators
open Idealize.ShloMosaic

namespace Cert.Spec

namespace Alg

/-! ### The constant words as real numbers -/

/-- The word `0x3F800000` denotes `1`: sign 0, exponent field 127, fraction 0. -/
theorem one_eq : one = ((1 : ℝ) : EReal) := by
  unfold one
  simp [Ideal.ofBits, Ideal.ieee, -EReal.coe_mul]; norm_num

/-- The word `0x4C000000` denotes `2²⁵ = 33554432`: sign 0, exponent field 152 = 127 + 25, fraction 0. -/
theorem nTot_eq : nTot = ((33554432 : ℝ) : EReal) := by
  unfold nTot
  simp [Ideal.ofBits, Ideal.ieee, -EReal.coe_mul]; norm_num

/-- The smoothing constant as a real: the word `0x3727C5AC` has exponent field 110 and fraction 2606508, so it
    denotes `(2²³ + 2606508) · 2^(110 - 127 - 23) = 10995116 / 2⁴⁰`, a little over `10⁻⁵`. -/
def epsR : ℝ := 10995116 / 1099511627776

theorem epsR_pos : 0 < epsR := by unfold epsR; norm_num

theorem eps_eq : eps = ((epsR : ℝ) : EReal) := by
  unfold eps epsR
  simp [Ideal.ofBits, Ideal.ieee, -EReal.coe_mul]; norm_num

/-! ### Counting pixels -/

/-- The index set has `32 · 1 · 1024 · 1024 = 2²⁵` elements: a product of the four axis sizes. -/
theorem card_idx : Fintype.card S4d.Idx = 33554432 := by
  rw [Shape.card_idx, Shape.numel, Fin.prod_univ_four]
  simp

/-- With every label 0 or 1, "not one" is "zero", so the zeros and the ones partition the pixels. -/
theorem cnt_add (T : S4d.Idx → BitVec 32) (hlab : ∀ j, T j = 0#32 ∨ T j = 1#32) :
    cnt T 0#32 + cnt T 1#32 = 33554432 := by
  have h := Finset.card_filter_add_card_filter_not (s := (Finset.univ : Finset S4d.Idx)) (fun j => T j = 1#32)
  have h0 : (Finset.univ.filter fun j : S4d.Idx => ¬ T j = 1#32) = Finset.univ.filter fun j => T j = 0#32 := by
    apply Finset.filter_congr
    intro j _
    rcases hlab j with hj | hj <;> simp [hj]
  rw [h0, Finset.card_univ, card_idx] at h
  unfold cnt
  omega

/-- The same in `ℝ`: the pixel count minus the number of ones is the number of zeros. -/
theorem cnt_sub (T : S4d.Idx → BitVec 32) (hlab : ∀ j, T j = 0#32 ∨ T j = 1#32) :
    (33554432 : ℝ) - (cnt T 1#32 : ℝ) = (cnt T 0#32 : ℝ) := by
  have h : ((cnt T 0#32 + cnt T 1#32 : ℕ) : ℝ) = 33554432 := by rw [cnt_add T hlab]; norm_num
  push_cast at h
  linarith

/-! ### Sums of real numbers in the extended reals -/

/-- A finite sum of coerced reals is the coercion of the real sum. -/
theorem coe_sum {ι : Type} (s : Finset ι) (f : ι → ℝ) :
    (∑ j ∈ s, ((f j : ℝ) : EReal)) = ((∑ j ∈ s, f j : ℝ) : EReal) := by
  classical
  refine Finset.induction_on s ?_ ?_
  · simp
  · intro a s ha ih
    rw [Finset.sum_insert ha, Finset.sum_insert ha, ih, EReal.coe_add]

/-! ### The per-pixel quantities as real numbers -/

/-- The logistic function on the reals. -/
def sig (x : ℝ) : ℝ := (1 + Real.exp (-x))⁻¹

/-- The indicator of label one. -/
def ind (w : BitVec 32) : ℝ := if w = 1#32 then 1 else 0

/-- The probability of a real score is the real logistic value. -/
theorem prob_coe (x : ℝ) : prob (x : EReal) = ((sig x : ℝ) : EReal) := by
  unfold prob sig
  rw [Ideal.logistic_coe]

/-- A binary label read as a number is its indicator of one. -/
theorem lab_eq {w : BitVec 32} (hw : w = 0#32 ∨ w = 1#32) : lab w = ((ind w : ℝ) : EReal) := by
  rcases hw with rfl | rfl <;> simp [lab, ind]

/-- The weight of a class with `c` pixels, in `ℝ`. -/
def wR (c : ℕ) : ℝ := 1 / (((c : ℝ) + epsR) * ((c : ℝ) + epsR))

/-- A count plus the positive smoothing constant is positive, so its square is not zero and the weight is the real
    reciprocal. -/
theorem weight_coe (c : ℕ) : weight (((c : ℝ) : ℝ) : EReal) = ((wR c : ℝ) : EReal) := by
  have hpos : (0 : ℝ) < (c : ℝ) + epsR := add_pos_of_nonneg_of_pos (Nat.cast_nonneg c) epsR_pos
  have hne : ((c : ℝ) + epsR) * ((c : ℝ) + epsR) ≠ 0 := (mul_pos hpos hpos).ne'
  unfold weight wR
  rw [eps_eq, one_eq, ← EReal.coe_add, ← EReal.coe_mul, Ideal.div_coe hne, ← EReal.coe_mul, one_mul]

/-- A pixel's selected weight, in `ℝ`. -/
def wsR (T : S4d.Idx → BitVec 32) (w : BitVec 32) : ℝ := if w = 1#32 then wR (cnt T 1#32) else wR (cnt T 0#32)

theorem wsel_coe (T : S4d.Idx → BitVec 32) (w : BitVec 32) : wsel T w = ((wsR T w : ℝ) : EReal) := by
  unfold wsel wsR
  split_ifs <;> rw [weight_coe]

/-! ### The four totals as real sums -/

theorem total0 (X : S4d.Idx → EReal) (T : S4d.Idx → BitVec 32) (hlab : ∀ j, T j = 0#32 ∨ T j = 1#32) :
    total 0 X T = ((∑ j, ind (T j) : ℝ) : EReal) := by
  unfold total
  rw [← coe_sum]
  refine Finset.sum_congr rfl fun j _ => ?_
  show lab (T j) = _
  exact lab_eq (hlab j)

theorem total1 (X : S4d.Idx → EReal) (T : S4d.Idx → BitVec 32) (x : S4d.Idx → ℝ) (hx : ∀ j, X j = (x j : EReal))
    (hlab : ∀ j, T j = 0#32 ∨ T j = 1#32) :
    total 1 X T = ((∑ j, sig (x j) * ind (T j) : ℝ) : EReal) := by
  unfold total
  rw [← coe_sum]
  refine Finset.sum_congr rfl fun j _ => ?_
  show prob (X j) * lab (T j) = _
  rw [hx j, prob_coe, lab_eq (hlab j), ← EReal.coe_mul]

theorem total2 (X : S4d.Idx → EReal) (T : S4d.Idx → BitVec 32) (x : S4d.Idx → ℝ) (hx : ∀ j, X j = (x j : EReal)) :
    total 2 X T = ((∑ j, sig (x j) * sig (x j) : ℝ) : EReal) := by
  unfold total
  rw [← coe_sum]
  refine Finset.sum_congr rfl fun j _ => ?_
  show prob (X j) * prob (X j) = _
  rw [hx j, prob_coe, ← EReal.coe_mul]

theorem total3 (X : S4d.Idx → EReal) (T : S4d.Idx → BitVec 32) (x : S4d.Idx → ℝ) (hx : ∀ j, X j = (x j : EReal))
    (hlab : ∀ j, T j = 0#32 ∨ T j = 1#32) :
    total 3 X T = ((∑ j, sig (x j) * sig (x j) * ind (T j) : ℝ) : EReal) := by
  unfold total
  rw [← coe_sum]
  refine Finset.sum_congr rfl fun j _ => ?_
  show (prob (X j) * prob (X j)) * lab (T j) = _
  rw [hx j, prob_coe, lab_eq (hlab j), ← EReal.coe_mul, ← EReal.coe_mul]

/-- The total of the indicators is the number of ones. -/
theorem sum_ind (T : S4d.Idx → BitVec 32) : (∑ j, ind (T j)) = (cnt T 1#32 : ℝ) := by
  unfold ind cnt
  rw [Finset.sum_boole]

/-! ### The two pixel-by-pixel sums -/

/-- The weighted intersection: a pixel with label 0 contributes nothing, one with label 1 carries the weight of
    class one, so that weight comes out of the sum. -/
theorem iR_eq (X : S4d.Idx → EReal) (T : S4d.Idx → BitVec 32) (x : S4d.Idx → ℝ) (hx : ∀ j, X j = (x j : EReal))
    (hlab : ∀ j, T j = 0#32 ∨ T j = 1#32) :
    iR X T = ((wR (cnt T 1#32) * ∑ j, sig (x j) * ind (T j) : ℝ) : EReal) := by
  have hpix : ∀ j, (wsel T (T j) * prob (X j)) * lab (T j)
      = ((wR (cnt T 1#32) * (sig (x j) * ind (T j)) : ℝ) : EReal) := by
    intro j
    rw [wsel_coe, hx j, prob_coe, lab_eq (hlab j), ← EReal.coe_mul, ← EReal.coe_mul]
    congr 1
    unfold wsR ind
    split_ifs <;> ring
  unfold iR
  rw [Finset.sum_congr rfl fun j _ => hpix j, coe_sum, ← Finset.mul_sum]

/-- The weighted denominator: on label 0 the pixel's term is `w₀ · p²`, on label 1 it is `w₁ · (p² + 1)`; both are
    `w₀ · (p² − p² t) + w₁ · (p² t + t)`, and the two weights come out of the sums. -/
theorem dR_eq (X : S4d.Idx → EReal) (T : S4d.Idx → BitVec 32) (x : S4d.Idx → ℝ) (hx : ∀ j, X j = (x j : EReal))
    (hlab : ∀ j, T j = 0#32 ∨ T j = 1#32) :
    dR X T = ((wR (cnt T 0#32) * ((∑ j, sig (x j) * sig (x j)) - ∑ j, sig (x j) * sig (x j) * ind (T j))
      + wR (cnt T 1#32) * ((∑ j, sig (x j) * sig (x j) * ind (T j)) + ∑ j, ind (T j)) : ℝ) : EReal) := by
  have hpix : ∀ j, wsel T (T j) * (prob (X j) * prob (X j) + lab (T j) * lab (T j))
      = ((wR (cnt T 0#32) * (sig (x j) * sig (x j) - sig (x j) * sig (x j) * ind (T j))
          + wR (cnt T 1#32) * (sig (x j) * sig (x j) * ind (T j) + ind (T j)) : ℝ) : EReal) := by
    intro j
    rw [wsel_coe, hx j, prob_coe, lab_eq (hlab j), ← EReal.coe_mul, ← EReal.coe_mul, ← EReal.coe_add,
      ← EReal.coe_mul]
    congr 1
    unfold wsR ind
    split_ifs <;> ring
  unfold dR
  rw [Finset.sum_congr rfl fun j _ => hpix j, coe_sum, Finset.sum_add_distrib, ← Finset.mul_sum, ← Finset.mul_sum,
    Finset.sum_sub_distrib, Finset.sum_add_distrib]

end Alg

open Alg in
/-- On binary labels and real scores the loss over the four totals is the loss pixel by pixel. -/
theorem resK_eq_resR (X : S4d.Idx → EReal) (T : S4d.Idx → BitVec 32)
    (hfin : ∀ j, ∃ r : ℝ, X j = (r : EReal)) (hlab : ∀ j, T j = 0#32 ∨ T j = 1#32) :
    resK (total 0 X T) (total 1 X T) (total 2 X T) (total 3 X T) = resR X T := by
  choose x hx using hfin
  unfold resK resR
  rw [iR_eq X T x hx hlab, dR_eq X T x hx hlab, total0 X T hlab, total1 X T x hx hlab, total2 X T x hx,
    total3 X T x hx hlab, sum_ind, nTot_eq, ← EReal.coe_sub, cnt_sub T hlab, weight_coe, weight_coe]
  simp only [← EReal.coe_mul, ← EReal.coe_add, ← EReal.coe_sub]

end Cert.Spec

end
-- ==== Proof.PreDecode.lean ====
/-
  What the precondition says about the arguments: every score is a real number and every label is 0 or 1.

  The precondition is the conjunction of three whole-array tests: `|x| < +∞` at every score, `t ≥ 0` and `t < 2`
  (signed) at every label. A conjunction of bits is one only if each is; a whole-array "and" is one only if every
  element is; an extended real of finite absolute value is a real; a signed word in [0, 2) is 0 or 1.
-/
import proofs.«403192_j4870492913844_3_alg».proof.Pre_finite_inputs
import proofs.«403192_j4870492913844_3_alg».proof.Proof.Gen.Pre_finite_inputs
import Idealize.ShloMosaic.Lib.ReduceAll
import Idealize.ShloMosaic.Lib.ValueIdx

noncomputable section

open Idealize.ShloMosaic

namespace Cert.PreDecode

/-- The scalar shape has one index. -/
instance : Subsingleton Cert.Pre_finite_inputs.S_.Idx := ⟨fun a b => funext fun d => d.elim0⟩

/-- A bit made from a truth value is one exactly when the truth value is true. -/
theorem ofBool_eq_one {b : Bool} : BitVec.ofBool b = 1#1 ↔ b = true := by cases b <;> decide

/-- The word the scores' absolute values are compared with denotes +∞. -/
theorem inf_word : Ideal.ofBits .f32 0x7F800000#32 = (⊤ : EReal) := by simp [Ideal.ofBits, Ideal.ieee]

/-- An extended real whose absolute value `max x (-x)` is below +∞ is a real number: at −∞ and at +∞ the absolute
    value is +∞. -/
theorem real_of_abs_lt_top (x : EReal) (h : max x (-x) < ⊤) : ∃ r : ℝ, x = (r : EReal) := by
  induction x using EReal.rec with
  | bot => simp at h
  | coe r => exact ⟨r, rfl⟩
  | top => simp at h

/-- A word that reads, signed, at least 0 and below 2 is the word 0 or the word 1. -/
theorem word01 (w : BitVec 32) (h0 : (0#32 : BitVec 32).toInt ≤ w.toInt) (h2 : w.toInt < (2#32 : BitVec 32).toInt) :
    w = 0#32 ∨ w = 1#32 := by
  have e0 : (0#32 : BitVec 32).toInt = 0 := by decide
  have e2 : (2#32 : BitVec 32).toInt = 2 := by decide
  rw [e0] at h0
  rw [e2] at h2
  have hw : w.toInt = 0 ∨ w.toInt = 1 := by omega
  rcases hw with hw | hw
  · exact Or.inl (BitVec.eq_of_toInt_eq (hw.trans (by decide)))
  · exact Or.inr (BitVec.eq_of_toInt_eq (hw.trans (by decide)))

/-- From the printed precondition at the extended reals: real scores, binary labels. -/
theorem of_pre [Cert.Pre_finite_inputs.Facts]
    (X : FVec Ideal Cert.Pre_finite_inputs.S32x1x1024x1024 .f32) (T : IVec Cert.Pre_finite_inputs.S32x1x1024x1024 32)
    (h : Cert.Pre_finite_inputs.fn (F := Ideal) X T = fun _ => 1#1) :
    (∀ j, ∃ r : ℝ, X j = (r : EReal)) ∧ (∀ j, T j = 0#32 ∨ T j = 1#32) := by
  have e := congrFun h ValueIdx.ix0
  unfold Cert.Pre_finite_inputs.fn at e
  dsimp only at e
  -- the conjunction of the three whole-array tests, split
  obtain ⟨e12, e3⟩ := IntOp.andi_eq_one.1 e
  obtain ⟨e1, e2⟩ := IntOp.andi_eq_one.1 e12
  have a1 := Host.reduce_andi_all _ _ _ _ _ e1
  have a2 := Host.reduce_andi_all _ _ _ _ _ e2
  have a3 := Host.reduce_andi_all _ _ _ _ _ e3
  refine ⟨fun j => ?_, fun j => ?_⟩
  · -- the score at j: its absolute value is below the infinity word
    have hj := a1 j
    have hlt : max (X j) (-(X j)) < Ideal.ofBits .f32 0x7F800000#32 :=
      of_decide_eq_true (ofBool_eq_one.1 (hj : Ideal.cmp .olt (max (X j) (-(X j))) (Ideal.ofBits .f32 0x7F800000#32) = 1#1))
    rw [inf_word] at hlt
    exact real_of_abs_lt_top _ hlt
  · -- the label at j: at least 0 and below 2, signed
    have h0 : IntOp.cmpi .sge (T j) (0#32) = 1#1 := a2 j
    have h2 : IntOp.cmpi .slt (T j) (2#32) = 1#1 := a3 j
    exact word01 _ (IntOp.cmpi_sge.1 h0) (IntOp.cmpi_slt.1 h2)

end Cert.PreDecode

end
-- ==== Proof.lean ====
/-
  A weighted dice loss of binary segmentation, computed two ways, is one number.

  The tiled program makes one pass over the pixels and keeps four totals — of the labels `t`, of `p t`, of `p²` and
  of `p² t`, `p` the logistic function of the score — and writes the loss over them; the reference builds the two
  class counts, selects a weight per pixel and sums pixel by pixel. On labels that are 0 or 1 and scores that are
  real numbers the two are equal over the extended reals (`Spec.resK_eq_resR`); the precondition says exactly that of
  the arguments (`PreDecode.of_pre`). The tiled program's result is read off its run in `KTail.run`, the
  reference's in `RValue.run`.
-/
import proofs.«403192_j4870492913844_3_alg».proof.Defs
import proofs.«403192_j4870492913844_3_alg».proof.Proof.Gen.Kernel
import proofs.«403192_j4870492913844_3_alg».proof.Proof.Gen.Kernel.Frame
import proofs.«403192_j4870492913844_3_alg».proof.Proof.Gen.KernelIdeal
import proofs.«403192_j4870492913844_3_alg».proof.Proof.Gen.KernelIdeal.Frame
import proofs.«403192_j4870492913844_3_alg».proof.Proof.Gen.ReferenceIdeal
import proofs.«403192_j4870492913844_3_alg».proof.Proof.Gen.ReferenceIdeal.Run
import proofs.«403192_j4870492913844_3_alg».proof.Proof.Gen.Pre_finite_inputs
import proofs.«403192_j4870492913844_3_alg».proof.Proof.KTail
import proofs.«403192_j4870492913844_3_alg».proof.Proof.RValue
import proofs.«403192_j4870492913844_3_alg».proof.Proof.Algebra
import proofs.«403192_j4870492913844_3_alg».proof.Proof.PreDecode
import Idealize.ShloMosaic.Adequacy
import Idealize.ShloMosaic.Init

noncomputable section

namespace Cert.Proof

open Idealize.ShloMosaic Idealize.ShloMosaic.TcCoe Idealize.SL.Sem

/-- The reference runs and keeps its arguments: its run with the result dropped. -/
theorem frame_ri [Cert.ReferenceIdeal.Facts] [Cert.Pre_finite_inputs.Facts] : Cert.frame_ReferenceIdeal := fun m ρ _ =>
  (θ_run Cert.ReferenceIdeal.defs _ _).mono (fun _ h c => (h c).2) (Cert.ReferenceIdeal.Value.run (F := Ideal) m ρ)

/-- Both programs end at the same extended real: the tiled one at the loss over the four totals, the reference at the
    loss pixel by pixel, of arguments that agree, are real, and carry binary labels. -/
theorem algebraic [Cert.KernelIdeal.Facts] [Cert.ReferenceIdeal.Facts] [Cert.Pre_finite_inputs.Facts] :
    Cert.algebraic_KernelIdeal_ReferenceIdeal := by
  intro m ρ m' ρ' hpre hagree
  refine ⟨_, Cert.KernelIdeal.KTail.run m ρ, ?_⟩
  have hlab : ∀ (c : Dev Cert.ReferenceIdeal.nD) (j : Cert.ReferenceIdeal.S32x1x1024x1024.Idx),
      m' ((c : Thread Cert.ReferenceIdeal.nD Cert.ReferenceIdeal.τ).loc Cert.ReferenceIdeal.main_arg1) j = 0#32
      ∨ m' ((c : Thread Cert.ReferenceIdeal.nD Cert.ReferenceIdeal.τ).loc Cert.ReferenceIdeal.main_arg1) j = 1#32 := by
    intro c j
    rw [(hagree c).2]
    exact (Cert.PreDecode.of_pre _ _ (hpre c)).2 j
  refine (θ_run Cert.ReferenceIdeal.defs _ _).mono (fun _ h c => ⟨(h c).1.trans ?_, (h c).2⟩)
    (Cert.ReferenceIdeal.RValue.run m' ρ' hlab)
  rw [(hagree c).1, (hagree c).2]
  obtain ⟨hfin, hl⟩ := Cert.PreDecode.of_pre _ _ (hpre c)
  exact funext fun _ => (Cert.Spec.resK_eq_resR _ _ hfin hl).symm

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ,
  fun m ρ _ => Cert.KernelIdeal.Gen.frame m ρ,
  frame_ri, trivial, algebraic⟩

end Cert.Proof

end
